-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x512 : Shape := ⟨2, ![200000, 512]⟩
abbrev S128x128 : Shape := ⟨2, ![128, 128]⟩
abbrev S128 : Shape := ⟨1, ![128]⟩
abbrev S256x128 : Shape := ⟨2, ![256, 128]⟩
abbrev S128x384 : Shape := ⟨2, ![128, 384]⟩
abbrev S384 : Shape := ⟨1, ![384]⟩
abbrev S_ : Shape := ⟨0, ![]⟩

class Facts : Prop where
  bcast_S_S200000x512 : S_.BroadcastsInDim S200000x512 (![] : Fin 0 → Fin S200000x512.rank)
  reducesTo_S200000x512_S_d0_1 : S200000x512.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_

variable [Facts]

def fn_part2 {F : FTy → Type} [FloatOps F] (main_arg7 : FVec F S128x384 .f32) (main_arg8 : FVec F S384 .f32) (main_v33 : IVec S_ 1) : IVec S_ 1 :=
  let main_v34 : FVec F S128x384 .f32 := Host.absf main_arg7
  let main_cst_12 : FVec F S_ .f32 := constant S_ .f32 0x7F800000#32
  let main_v35 : FVec F S128x384 .f32 := broadcastInDim S128x384 ![] bcast_S_S128x384 main_cst_12
  let main_v36 : IVec S128x384 1 := cmpf .olt main_v34 main_v35
  let main_c_13 : IVec S_ 1 := constantI S_ 1 1#1
  let main_v37 : IVec S_ 1 := (fun x v => Host.reduce IntOp.andi x v reducesTo_S128x384_S_d0_1 h_S_) main_v36 main_c_13
  let main_v38 : IVec S_ 1 := andi main_v33 main_v37
  let main_v39 : FVec F S384 .f32 := Host.absf main_arg8
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  main_v43

def fn_part1 {F : FTy → Type} [FloatOps F] (main_arg4 : FVec F S128 .f32) (main_arg5 : FVec F S256x128 .f32) (main_arg6 : FVec F S128 .f32) (main_arg7 : FVec F S128x384 .f32) (main_arg8 : FVec F S384 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S200000x512 .f32) (main_arg1 : FVec F S128x128 .f32) (main_arg2 : FVec F S128 .f32) (main_arg3 : FVec F S128x128 .f32) (main_arg4 : FVec F S128 .f32) (main_arg5 : FVec F S256x128 .f32) (main_arg6 : FVec F S128 .f32) (main_arg7 : FVec F S128x384 .f32) (main_arg8 : FVec F S384 .f32) : IVec S_ 1 :=
  let main_v0 : FVec F S200000x512 .f32 := Host.absf main_arg0
  let main_cst : FVec F S_ .f32 := constant S_ .f32 0x7F800000#32
  let main_v1 : FVec F S200000x512 .f32 := broadcastInDim S200000x512 ![] bcast_S_S200000x512 main_cst
  let main_v2 : IVec S200000x512 1 := cmpf .olt main_v0 main_v1
  let main_c : IVec S_ 1 := constantI S_ 1 1#1
  let main_v3 : IVec S_ 1 := (fun x v => Host.reduce IntOp.andi x v reducesTo_S200000x512_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S200000x512 : Shape := ⟨2, ![200000, 512]⟩
abbrev S128x128 : Shape := ⟨2, ![128, 128]⟩
abbrev S128 : Shape := ⟨1, ![128]⟩
abbrev S256x128 : Shape := ⟨2, ![256, 128]⟩
abbrev S128x384 : Shape := ⟨2, ![128, 384]⟩
abbrev S384 : Shape := ⟨1, ![384]⟩
abbrev S1000x512 : Shape := ⟨2, ![1000, 512]⟩
abbrev S1000x128 : Shape := ⟨2, ![1000, 128]⟩
abbrev S1x128 : Shape := ⟨2, ![1, 128]⟩
abbrev S1000x256 : Shape := ⟨2, ![1000, 256]⟩
abbrev S1000x384 : Shape := ⟨2, ![1000, 384]⟩
abbrev S1x384 : Shape := ⟨2, ![1, 384]⟩

abbrev nBuf : Space → Nat
  | .hbm => 10
  | .vmem => 12
  | .smem => 0
  | _ => 0

abbrev bufTy : (tb : Table) → Fin (tcTables nBuf tb) → BufTy
  | .hbm, ⟨0, _⟩ => ⟨S200000x512, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128x384, .f32⟩
  | .hbm, ⟨8, _⟩ => ⟨S384, .f32⟩
  | .hbm, ⟨9, _⟩ => ⟨S200000x512, .f32⟩
  | .local _ .vmem, ⟨0, _⟩ => ⟨S1000x512, .f32⟩
  | .local _ .vmem, ⟨1, _⟩ => ⟨S1000x512, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S256x128, .f32⟩
  | .local _ .vmem, ⟨7, _⟩ => ⟨S128, .f32⟩
  | .local _ .vmem, ⟨8, _⟩ => ⟨S128x384, .f32⟩
  | .local _ .vmem, ⟨9, _⟩ => ⟨S384, .f32⟩
  | .local _ .vmem, ⟨10, _⟩ => ⟨S1000x512, .f32⟩
  | .local _ .vmem, ⟨11, _⟩ => ⟨S1000x512, .f32⟩
  | _, _ => ⟨S200000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1000x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S1000x512_S1000x128_0_0 : ∀ a, (![0, 0] : Fin 2 → Nat) a + S1000x128.size a ≤ S1000x512.size a
  h_S1000x128 : 0 < S1000x128.numel
  inb_S1000x512_S1000x128_0_128 : ∀ a, (![0, 128] : Fin 2 → Nat) a + S1000x128.size a ≤ S1000x512.size a
  inb_S1000x512_S1000x128_0_256 : ∀ a, (![0, 256] : Fin 2 → Nat) a + S1000x128.size a ≤ S1000x512.size a
  inb_S1000x512_S1000x128_0_384 : ∀ a, (![0, 384] : Fin 2 → Nat) a + S1000x128.size a ≤ S1000x512.size a
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  concatenates_S1000x128_S1000x128_S1000x256_d1 : Shape.Concatenates [S1000x128, S1000x128] S1000x256 1
  inb_S256x128_S256x128_0_0 : ∀ a, (![0, 0] : Fin 2 → Nat) a + S256x128.size a ≤ S256x128.size a
  h_S256x128 : 0 < S256x128.numel
  inb_S128x384_S128x384_0_0 : ∀ a, (![0, 0] : Fin 2 → Nat) a + S128x384.size a ≤ S128x384.size a
  h_S128x384 : 0 < S128x384.numel
  inb_S384_S384_0 : ∀ a, (![0] : Fin 1 → Nat) a + S384.size a ≤ S384.size a
  h_S384 : 0 < S384.numel
  shapeCasts_S384_S1x384 : S384.ShapeCasts S1x384
  broadcasts_S1x384_S1000x384 : S1x384.Broadcasts S1000x384
  slices_S1000x384_o0_0_S1000x128 : S1000x384.Slices ![0, 0] S1000x128
  slices_S1000x384_o0_128_S1000x128 : S1000x384.Slices ![0, 128] S1000x128
  slices_S1000x384_o0_256_S1000x128 : S1000x384.Slices ![0, 256] S1000x128
  dot_S1000x128_S128x128_S1000x128_1_0_0_1_n_n_wf : DotDims.WF S1000x128 S128x128 S1000x128 [1] [0] [0] [1] [] []
  dot_S1000x256_S256x128_S1000x128_1_0_0_1_n_n_wf : DotDims.WF S1000x256 S256x128 S1000x128 [1] [0] [0] [1] [] []
  dot_S1000x128_S128x384_S1000x384_1_0_0_1_n_n_wf : DotDims.WF S1000x128 S128x384 S1000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S200000x512.size a
  hwx0_0 : ∀ i : grid0.Coords, EltTy.bits .f32 = 32 ∨ (Rect.block (s := S200000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x384.size a ≤ S128x384.size a
  hwx0_7 : ∀ i : grid0.Coords, EltTy.bits .f32 = 32 ∨ (Rect.block (s := S128x384) S128x384.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S384.size a ≤ S384.size a
  hwx0_8 : ∀ i : grid0.Coords, EltTy.bits .f32 = 32 ∨ (Rect.block (s := S384) S384.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x512.size a ≤ S200000x512.size a
  hwx0_9 : ∀ i : grid0.Coords, EltTy.bits .f32 = 32 ∨ (Rect.block (s := S200000x512) S1000x512.size (cc0_transform_9 i) (hinb0_9 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def dot_S1000x128_S128x384_S1000x384_1_0_0_1_n_n : DotDims S1000x128 S128x384 S1000x384 where
  lhsContracting := [1]
  rhsContracting := [0]
  lhsNonContracting := [0]
  rhsNonContracting := [1]
  lhsBatch := []
  rhsBatch := []
  wf := dot_S1000x128_S128x384_S1000x384_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1000x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S200000x512 : Shape := ⟨2, ![200000, 512]⟩
abbrev S128x128 : Shape := ⟨2, ![128, 128]⟩
abbrev S128 : Shape := ⟨1, ![128]⟩
abbrev S256x128 : Shape := ⟨2, ![256, 128]⟩
abbrev S128x384 : Shape := ⟨2, ![128, 384]⟩
abbrev S384 : Shape := ⟨1, ![384]⟩
abbrev S200000x128 : Shape := ⟨2, ![200000, 128]⟩
abbrev S200000x384 : Shape := ⟨2, ![200000, 384]⟩
abbrev S200000x3x128 : Shape := ⟨3, ![200000, 3, 128]⟩
abbrev S1x1x128 : Shape := ⟨3, ![1, 1, 128]⟩
abbrev S_ : Shape := ⟨0, ![]⟩
abbrev S200000x256 : Shape := ⟨2, ![200000, 256]⟩
abbrev S1x128 : Shape := ⟨2, ![1, 128]⟩
abbrev S1x384 : Shape := ⟨2, ![1, 384]⟩
abbrev S200000x1x128 : Shape := ⟨3, ![200000, 1, 128]⟩

abbrev nBuf : Space → Nat
  | .hbm => 56
  | .vmem => 0
  | .smem => 0
  | _ => 0

abbrev bufTy : (tb : Table) → Fin (tcTables nBuf tb) → BufTy
  | .hbm, ⟨0, _⟩ => ⟨S200000x512, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128x384, .f32⟩
  | .hbm, ⟨8, _⟩ => ⟨S384, .f32⟩
  | .hbm, ⟨9, _⟩ => ⟨S200000x128, .f32⟩
  | .hbm, ⟨10, _⟩ => ⟨S200000x384, .f32⟩
  | .hbm, ⟨11, _⟩ => ⟨S200000x3x128, .f32⟩
  | .hbm, ⟨12, _⟩ => ⟨S200000x3x128, .f32⟩
  | .hbm, ⟨13, _⟩ => ⟨S1x1x128, .f32⟩
  | .hbm, ⟨14, _⟩ => ⟨S200000x3x128, .f32⟩
  | .hbm, ⟨15, _⟩ => ⟨S200000x3x128, .f32⟩
  | .hbm, ⟨16, _⟩ => ⟨S200000x3x128, .f32⟩
  | .hbm, ⟨17, _⟩ => ⟨S1x1x128, .f32⟩
  | .hbm, ⟨18, _⟩ => ⟨S200000x3x128, .f32⟩
  | .hbm, ⟨19, _⟩ => ⟨S200000x3x128, .f32⟩
  | .hbm, ⟨20, _⟩ => ⟨S200000x3x128, .f32⟩
  | .hbm, ⟨21, _⟩ => ⟨S_, .f32⟩
  | .hbm, ⟨22, _⟩ => ⟨S200000x128, .f32⟩
  | .hbm, ⟨23, _⟩ => ⟨S200000x128, .f32⟩
  | .hbm, ⟨24, _⟩ => ⟨S200000x256, .f32⟩
  | .hbm, ⟨25, _⟩ => ⟨S200000x128, .f32⟩
  | .hbm, ⟨26, _⟩ => ⟨S1x128, .f32⟩
  | .hbm, ⟨27, _⟩ => ⟨S200000x128, .f32⟩
  | .hbm, ⟨28, _⟩ => ⟨S200000x128, .f32⟩
  | .hbm, ⟨29, _⟩ => ⟨S200000x128, .f32⟩
  | .hbm, ⟨30, _⟩ => ⟨S200000x128, .f32⟩
  | .hbm, ⟨31, _⟩ => ⟨S_, .f32⟩
  | .hbm, ⟨32, _⟩ => ⟨S200000x128, .f32⟩
  | .hbm, ⟨33, _⟩ => ⟨S200000x128, .f32⟩
  | .hbm, ⟨34, _⟩ => ⟨S_, .f32⟩
  | .hbm, ⟨35, _⟩ => ⟨S200000x128, .f32⟩
  | .hbm, ⟨36, _⟩ => ⟨S200000x128, .f32⟩
  | .hbm, ⟨37, _⟩ => ⟨S200000x128, .f32⟩
  | .hbm, ⟨38, _⟩ => ⟨S200000x384, .f32⟩
  | .hbm, ⟨39, _⟩ => ⟨S1x384, .f32⟩
  | .hbm, ⟨40, _⟩ => ⟨S200000x384, .f32⟩
  | .hbm, ⟨41, _⟩ => ⟨S200000x384, .f32⟩
  | .hbm, ⟨42, _⟩ => ⟨S200000x128, .f32⟩
  | .hbm, ⟨43, _⟩ => ⟨S200000x128, .f32⟩
  | .hbm, ⟨44, _⟩ => ⟨S200000x128, .f32⟩
  | .hbm, ⟨45, _⟩ => ⟨S200000x1x128, .f32⟩
  | .hbm, ⟨46, _⟩ => ⟨S200000x3x128, .f32⟩
  | .hbm, ⟨47, _⟩ => ⟨S200000x3x128, .f32⟩
  | .hbm, ⟨48, _⟩ => ⟨S200000x3x128, .f32⟩
  | .hbm, ⟨49, _⟩ => ⟨S_, .f32⟩
  | .hbm, ⟨50, _⟩ => ⟨S200000x128, .f32⟩
  | .hbm, ⟨51, _⟩ => ⟨S200000x128, .f32⟩
  | .hbm, ⟨52, _⟩ => ⟨S200000x128, .f32⟩
  | .hbm, ⟨53, _⟩ => ⟨S200000x384, .f32⟩
  | .hbm, ⟨54, _⟩ => ⟨S200000x512, .f32⟩
  | .hbm, ⟨55, _⟩ => ⟨S200000x512, .f32⟩
  | _, _ => ⟨S200000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_v0 : Ref sig .tc := ⟨.hbm, 20, rfl⟩
abbrev main_call0_cst : Ref sig .tc := ⟨.hbm, 21, rfl⟩
abbrev main_call0_v1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]

class Facts₀ : Prop where
  slices_S200000x512_S200000x128_0_0 : S200000x512.Slices ![0, 0] S200000x128
  slices_S200000x512_S200000x384_0_128 : S200000x512.Slices ![0, 128] S200000x384
  shapeCasts_S200000x384_S200000x3x128 : S200000x384.ShapeCasts S200000x3x128
  bcast_S128_S1x1x128_2 : S128.BroadcastsInDim S1x1x128 (![2] : Fin 1 → Fin S1x1x128.rank)
  bcast_S1x1x128_S200000x3x128_0_1_2 : S1x1x128.BroadcastsInDim S200000x3x128 (![0, 1, 2] : Fin 3 → Fin S200000x3x128.rank)
  reducesTo_S200000x3x128_S200000x128_d1 : S200000x3x128.ReducesTo [1] S200000x128
  h_S_ : 0 < S_.numel
  concatenates_S200000x128_S200000x128_S200000x256_d1 : Shape.Concatenates [S200000x128, S200000x128] S200000x256 1
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S384_S1x384_1 : S384.BroadcastsInDim S1x384 (![1] : Fin 1 → Fin S1x384.rank)
  bcast_S1x384_S200000x384_0_1 : S1x384.BroadcastsInDim S200000x384 (![0, 1] : Fin 2 → Fin S200000x384.rank)
  slices_S200000x384_S200000x128_0_0 : S200000x384.Slices ![0, 0] S200000x128
  slices_S200000x384_S200000x128_0_128 : S200000x384.Slices ![0, 128] S200000x128
  slices_S200000x384_S200000x128_0_256 : S200000x384.Slices ![0, 256] S200000x128
  bcast_S200000x128_S200000x1x128_0_2 : S200000x128.BroadcastsInDim S200000x1x128 (![0, 2] : Fin 2 → Fin S200000x1x128.rank)
  bcast_S200000x1x128_S200000x3x128_0_1_2 : S200000x1x128.BroadcastsInDim S200000x3x128 (![0, 1, 2] : Fin 3 → Fin S200000x3x128.rank)
  shapeCasts_S200000x3x128_S200000x384 : S200000x3x128.ShapeCasts S200000x384
  concatenates_S200000x128_S200000x384_S200000x512_d1 : Shape.Concatenates [S200000x128, S200000x384] S200000x512 1
  dot_S200000x3x128_S128x128_S200000x3x128_2_0_01_1_n_n_wf : DotDims.WF S200000x3x128 S128x128 S200000x3x128 [2] [0] [0, 1] [1] [] []
  dot_S200000x256_S256x128_S200000x128_1_0_0_1_n_n_wf : DotDims.WF S200000x256 S256x128 S200000x128 [1] [0] [0] [1] [] []
  dot_S200000x128_S128x384_S200000x384_1_0_0_1_n_n_wf : DotDims.WF S200000x128 S128x384 S200000x384 [1] [0] [0] [1] [] []

variable [Facts₀]

def dot_S200000x3x128_S128x128_S200000x3x128_2_0_01_1_n_n : DotDims S200000x3x128 S128x128 S200000x3x128 where
  lhsContracting := [2]
  rhsContracting := [0]
  lhsNonContracting := [0, 1]
  rhsNonContracting := [1]
  lhsBatch := []
  rhsBatch := []
  wf := dot_S200000x3x128_S128x128_S200000x3x128_2_0_01_1_n_n_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S200000x128_S128x384_S200000x384_1_0_0_1_n_n : DotDims S200000x128 S128x384 S200000x384 where
  lhsContracting := [1]
  rhsContracting := [0]
  lhsNonContracting := [0]
  rhsNonContracting := [1]
  lhsBatch := []
  rhsBatch := []
  wf := dot_S200000x128_S128x384_S200000x384_1_0_0_1_n_n_wf

class Facts : Prop extends Facts₀ where

variable [Facts]
-- ==== Proof.BlockProducts.lean ====
/-
  The three matrix products of the kernel's body, and its bias rows, read at an entry.

  A block of 1000 rows is multiplied by a 128 × 128, a 256 × 128 and a 128 × 384 matrix; each product starts from a
  zero accumulator, so at the extended reals its entry `(p, g)` is the plain sum `Σ_k l[p, k] · r[k, g]`.  A bias
  vector is first made a one-row matrix and then repeated over the 1000 rows, so its entry `(p, g)` is `b[g]`.
-/
import proofs.«179087_j41291815584027_1_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Idealize.ShloMosaic Idealize.ShloMosaic.ValueIdx Cert.KernelIdeal Cert.KernelIdeal.Gen

/-! ### A channel block times a 128 × 128 matrix -/

theorem lhsA_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem lhsA_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
theorem rhsA_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
theorem rhsA_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- Entry `(p, g)` of the product of a 1000 × 128 block with a 128 × 128 matrix, accumulated from zero, is the sum over
    the 128 contracted positions of the products of the entries. -/
theorem prodA (l : FVec Ideal S1000x128 .bf16) (r : FVec Ideal S128x128 .bf16) (p : Fin 1000) (g : Fin 128) :
    matmul dot_S1000x128_S128x128_S1000x128_1_0_0_1_n_n none l r (constant S1000x128 .f32 0x00000000#32) (ix2 p g)
      = ∑ k : Fin 128, l (ix2 p k) * r (ix2 k g) := by
  show FloatOps.matmul dot_S1000x128_S128x128_S1000x128_1_0_0_1_n_n none l r (constant S1000x128 .f32 0x00000000#32) (ix2 p g) = _
  rw [Ideal.matmul_constant_zero_apply, ← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 p g) ((contrEquiv1 dot_S1000x128_S128x128_S1000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S1000x128_S128x128_S1000x128_1_0_0_1_n_n.rhsIdx (ix2 p g) ((contrEquiv1 dot_S1000x128_S128x128_S1000x128_1_0_0_1_n_n 128 rfl rfl).symm k) = ix2 k g := funext fun a => Fin.ext (by
    match a with
    | ⟨0, _⟩ => exact (rhsA_0 _ _).trans hk
    | ⟨1, _⟩ => exact rhsA_1 _ _)
  rw [el, er]

/-! ### The network's input block times the 256 × 128 matrix -/

theorem lhsB_0 (i : S1000x128.Idx) (q : dot_S1000x256_S256x128_S1000x128_1_0_0_1_n_n.contr.Idx) :
    (dot_S1000x256_S256x128_S1000x128_1_0_0_1_n_n.lhsIdx i q 0).val = (i 0).val := by
  unfold DotDims.lhsIdx
  rw [dif_neg (show ¬(0 : Fin S1000x256.rank) ∈ dot_S1000x256_S256x128_S1000x128_1_0_0_1_n_n.lhsBatch by decide), dif_pos (show (0 : Fin S1000x256.rank) ∈ dot_S1000x256_S256x128_S1000x128_1_0_0_1_n_n.lhsNonContracting by decide)]
  rfl
theorem lhsB_1 (i : S1000x128.Idx) (q : dot_S1000x256_S256x128_S1000x128_1_0_0_1_n_n.contr.Idx) :
    (dot_S1000x256_S256x128_S1000x128_1_0_0_1_n_n.lhsIdx i q 1).val = (q ⟨0, by decide⟩).val :=
  dot_S1000x256_S256x128_S1000x128_1_0_0_1_n_n.lhsIdx_val_of_single rfl i q
theorem rhsB_0 (i : S1000x128.Idx) (q : dot_S1000x256_S256x128_S1000x128_1_0_0_1_n_n.contr.Idx) :
    (dot_S1000x256_S256x128_S1000x128_1_0_0_1_n_n.rhsIdx i q 0).val = (q ⟨0, by decide⟩).val :=
  dot_S1000x256_S256x128_S1000x128_1_0_0_1_n_n.rhsIdx_val_of_single rfl i q
theorem rhsB_1 (i : S1000x128.Idx) (q : dot_S1000x256_S256x128_S1000x128_1_0_0_1_n_n.contr.Idx) :
    (dot_S1000x256_S256x128_S1000x128_1_0_0_1_n_n.rhsIdx i q 1).val = (i 1).val := by
  unfold DotDims.rhsIdx
  rw [dif_neg (show ¬(1 : Fin S256x128.rank) ∈ dot_S1000x256_S256x128_S1000x128_1_0_0_1_n_n.rhsBatch by decide), dif_pos (show (1 : Fin S256x128.rank) ∈ dot_S1000x256_S256x128_S1000x128_1_0_0_1_n_n.rhsNonContracting by decide)]
  rfl

/-- Entry `(p, g)` of the product of a 1000 × 256 block with a 256 × 128 matrix, accumulated from zero, is the sum over
    the 256 contracted positions of the products of the entries. -/
theorem prodB (l : FVec Ideal S1000x256 .bf16) (r : FVec Ideal S256x128 .bf16) (p : Fin 1000) (g : Fin 128) :
    matmul dot_S1000x256_S256x128_S1000x128_1_0_0_1_n_n none l r (constant S1000x128 .f32 0x00000000#32) (ix2 p g)
      = ∑ k : Fin 256, l (ix2 p k) * r (ix2 k g) := by
  show FloatOps.matmul dot_S1000x256_S256x128_S1000x128_1_0_0_1_n_n none l r (constant S1000x128 .f32 0x00000000#32) (ix2 p g) = _
  rw [Ideal.matmul_constant_zero_apply, ← Equiv.sum_comp (contrEquiv1 dot_S1000x256_S256x128_S1000x128_1_0_0_1_n_n 256 rfl rfl).symm]
  refine Finset.sum_congr rfl fun k _ => ?_
  have hk := contrEquiv1_symm_val dot_S1000x256_S256x128_S1000x128_1_0_0_1_n_n 256 rfl rfl k
  have el : dot_S1000x256_S256x128_S1000x128_1_0_0_1_n_n.lhsIdx (ix2 p g) ((contrEquiv1 dot_S1000x256_S256x128_S1000x128_1_0_0_1_n_n 256 rfl rfl).symm k) = ix2 p k := funext fun a => Fin.ext (by
    match a with
    | ⟨0, _⟩ => exact lhsB_0 _ _
    | ⟨1, _⟩ => exact (lhsB_1 _ _).trans hk)
  have er : dot_S1000x256_S256x128_S1000x128_1_0_0_1_n_n.rhsIdx (ix2 p g) ((contrEquiv1 dot_S1000x256_S256x128_S1000x128_1_0_0_1_n_n 256 rfl rfl).symm k) = ix2 k g := funext fun a => Fin.ext (by
    match a with
    | ⟨0, _⟩ => exact (rhsB_0 _ _).trans hk
    | ⟨1, _⟩ => exact rhsB_1 _ _)
  rw [el, er]

/-! ### The hidden block times the 128 × 384 matrix -/

theorem lhsC_0 (i : S1000x384.Idx) (q : dot_S1000x128_S128x384_S1000x384_1_0_0_1_n_n.contr.Idx) :
    (dot_S1000x128_S128x384_S1000x384_1_0_0_1_n_n.lhsIdx i q 0).val = (i 0).val := by
  unfold DotDims.lhsIdx
  rw [dif_neg (show ¬(0 : Fin S1000x128.rank) ∈ dot_S1000x128_S128x384_S1000x384_1_0_0_1_n_n.lhsBatch by decide), dif_pos (show (0 : Fin S1000x128.rank) ∈ dot_S1000x128_S128x384_S1000x384_1_0_0_1_n_n.lhsNonContracting by decide)]
  rfl
theorem lhsC_1 (i : S1000x384.Idx) (q : dot_S1000x128_S128x384_S1000x384_1_0_0_1_n_n.contr.Idx) :
    (dot_S1000x128_S128x384_S1000x384_1_0_0_1_n_n.lhsIdx i q 1).val = (q ⟨0, by decide⟩).val :=
  dot_S1000x128_S128x384_S1000x384_1_0_0_1_n_n.lhsIdx_val_of_single rfl i q
theorem rhsC_0 (i : S1000x384.Idx) (q : dot_S1000x128_S128x384_S1000x384_1_0_0_1_n_n.contr.Idx) :
    (dot_S1000x128_S128x384_S1000x384_1_0_0_1_n_n.rhsIdx i q 0).val = (q ⟨0, by decide⟩).val :=
  dot_S1000x128_S128x384_S1000x384_1_0_0_1_n_n.rhsIdx_val_of_single rfl i q
theorem rhsC_1 (i : S1000x384.Idx) (q : dot_S1000x128_S128x384_S1000x384_1_0_0_1_n_n.contr.Idx) :
    (dot_S1000x128_S128x384_S1000x384_1_0_0_1_n_n.rhsIdx i q 1).val = (i 1).val := by
  unfold DotDims.rhsIdx
  rw [dif_neg (show ¬(1 : Fin S128x384.rank) ∈ dot_S1000x128_S128x384_S1000x384_1_0_0_1_n_n.rhsBatch by decide), dif_pos (show (1 : Fin S128x384.rank) ∈ dot_S1000x128_S128x384_S1000x384_1_0_0_1_n_n.rhsNonContracting by decide)]
  rfl

/-- Entry `(p, g)` of the product of a 1000 × 128 block with a 128 × 384 matrix, accumulated from zero, is the sum over
    the 128 contracted positions of the products of the entries. -/
theorem prodC (l : FVec Ideal S1000x128 .bf16) (r : FVec Ideal S128x384 .bf16) (p : Fin 1000) (g : Fin 384) :
    matmul dot_S1000x128_S128x384_S1000x384_1_0_0_1_n_n none l r (constant S1000x384 .f32 0x00000000#32) (ix2 p g)
      = ∑ k : Fin 128, l (ix2 p k) * r (ix2 k g) := by
  show FloatOps.matmul dot_S1000x128_S128x384_S1000x384_1_0_0_1_n_n none l r (constant S1000x384 .f32 0x00000000#32) (ix2 p g) = _
  rw [Ideal.matmul_constant_zero_apply, ← Equiv.sum_comp (contrEquiv1 dot_S1000x128_S128x384_S1000x384_1_0_0_1_n_n 128 rfl rfl).symm]
  refine Finset.sum_congr rfl fun k _ => ?_
  have hk := contrEquiv1_symm_val dot_S1000x128_S128x384_S1000x384_1_0_0_1_n_n 128 rfl rfl k
  have el : dot_S1000x128_S128x384_S1000x384_1_0_0_1_n_n.lhsIdx (ix2 p g) ((contrEquiv1 dot_S1000x128_S128x384_S1000x384_1_0_0_1_n_n 128 rfl rfl).symm k) = ix2 p k := funext fun a => Fin.ext (by
    match a with
    | ⟨0, _⟩ => exact lhsC_0 _ _
    | ⟨1, _⟩ => exact (lhsC_1 _ _).trans hk)
  have er : dot_S1000x128_S128x384_S1000x384_1_0_0_1_n_n.rhsIdx (ix2 p g) ((contrEquiv1 dot_S1000x128_S128x384_S1000x384_1_0_0_1_n_n 128 rfl rfl).symm k) = ix2 k g := funext fun a => Fin.ext (by
    match a with
    | ⟨0, _⟩ => exact (rhsC_0 _ _).trans hk
    | ⟨1, _⟩ => exact rhsC_1 _ _)
  rw [el, er]

/-! ### Bias rows -/

/-- A 128-vector made a row and repeated over 1000 rows reads, at `(p, g)`, the vector at `g`. -/
theorem bias128 (b : Vec Ideal S128 .f32) (p : Fin 1000) (g : Fin 128) :
    broadcastTo S1000x128 (shapeCast S1x128 b shapeCasts_S128_S1x128) broadcasts_S1x128_S1000x128 (ix2 p g) = b (ix1 g) :=
  (broadcastTo_1b_ab_apply (shapeCast S1x128 b shapeCasts_S128_S1x128) broadcasts_S1x128_S1000x128 p g).trans
    (shapeCast_a_1a_apply b shapeCasts_S128_S1x128 0 g)

/-- A 384-vector made a row and repeated over 1000 rows reads, at `(p, j)`, the vector at `j`. -/
theorem bias384 (b : Vec Ideal S384 .f32) (p : Fin 1000) (j : Fin 384) :
    broadcastTo S1000x384 (shapeCast S1x384 b shapeCasts_S384_S1x384) broadcasts_S1x384_S1000x384 (ix2 p j) = b (ix1 j) :=
  (broadcastTo_1b_ab_apply (shapeCast S1x384 b shapeCasts_S384_S1x384) broadcasts_S1x384_S1000x384 p j).trans
    (shapeCast_a_1a_apply b shapeCasts_S384_S1x384 0 j)

end Cert.KernelIdeal.RowValue

end
-- ==== Proof.NodeUpdate.lean ====
/-
  The update of one node, as a function of the node's feature row.

  A row `x` of 512 extended reals is a scalar part `x[0..128)` and three vector channels
  `x[128 + 128 c + k]`, `c < 3`, `k < 128`.  With weight matrices `Uw`, `Vw` (128 × 128), `M1` (256 × 128),
  `M2` (128 × 384) and biases `Ub`, `Vb`, `b1`, `b2`:

    U c g = Σ_k x[128 + 128 c + k] · Uw[k, g] + Ub[g]            V c g likewise with Vw, Vb
    nrm g = √(V 0 g² + V 1 g² + V 2 g²)
    hid g = Σ_{k < 256} (nrm ++ scalar part)[k] · M1[k, g] + b1[g]
    act g = hid g · 1 / (1 + e^(−hid g))
    mo j  = Σ_k act k · M2[k, j] + b2[j]                          (j < 384)
    out[g]               = x[g] + (mo[128 + g] · (U 0 g · V 0 g + U 1 g · V 1 g + U 2 g · V 2 g) + mo[256 + g])
    out[128 + 128 c + g] = x[128 + 128 c + g] + mo[g] · U c g

  Everything here is over the extended reals with their own addition and multiplication, the square root and the
  logistic function as the ideal instance defines them; sums of three terms are grouped `(a + b) + c`.
-/
import Idealize.ShloMosaic.PureOps.Ideal
import Idealize.ShloMosaic.Lib.ValueIdx

noncomputable section

namespace Cert.NodeUpdate

open Idealize.ShloMosaic

/-- A row times a matrix column, plus a bias entry. -/
def affine {K G : Nat} (x : Fin K → EReal) (W : Fin K → Fin G → EReal) (b : Fin G → EReal) (g : Fin G) : EReal :=
  (∑ k : Fin K, x k * W k g) + b g

/-- Channel `c` of the vector part of a row. -/
def chan (x : Fin 512 → EReal) (c : Fin 3) (k : Fin 128) : EReal :=
  x ⟨128 + (c.val * 128 + k.val), by have := c.isLt; have := k.isLt; omega⟩

section
variable (Uw Vw : Fin 128 → Fin 128 → EReal) (Ub Vb : Fin 128 → EReal)
  (M1 : Fin 256 → Fin 128 → EReal) (b1 : Fin 128 → EReal) (M2 : Fin 128 → Fin 384 → EReal) (b2 : Fin 384 → EReal)
  (x : Fin 512 → EReal)

/-- The first linear image of channel `c`. -/
def U (c : Fin 3) (g : Fin 128) : EReal := affine (chan x c) Uw Ub g

/-- The second linear image of channel `c`. -/
def V (c : Fin 3) (g : Fin 128) : EReal := affine (chan x c) Vw Vb g

/-- The Euclidean length, over the three channels, of the second image. -/
def nrm (g : Fin 128) : EReal :=
  Ideal.sqrt ((V Vw Vb x 0 g * V Vw Vb x 0 g + V Vw Vb x 1 g * V Vw Vb x 1 g) + V Vw Vb x 2 g * V Vw Vb x 2 g)

/-- The input of the two-layer network: the lengths, then the scalar part. -/
def netIn (k : Fin 256) : EReal :=
  if h : k.val < 128 then nrm Vw Vb x ⟨k.val, h⟩ else x ⟨k.val - 128, by have := k.isLt; omega⟩

/-- The hidden layer before its activation. -/
def hid (g : Fin 128) : EReal := affine (netIn Vw Vb x) M1 b1 g

/-- The hidden layer: `t · 1 / (1 + e^(−t))`. -/
def act (g : Fin 128) : EReal := hid Vw Vb M1 b1 x g * Ideal.logistic (hid Vw Vb M1 b1 x g)

/-- The network's output, 384 wide: three gates of 128. -/
def net (j : Fin 384) : EReal := affine (act Vw Vb M1 b1 x) M2 b2 j

/-- The inner product, over the three channels, of the two images. -/
def inner (g : Fin 128) : EReal :=
  (U Uw Ub x 0 g * V Vw Vb x 0 g + U Uw Ub x 1 g * V Vw Vb x 1 g) + U Uw Ub x 2 g * V Vw Vb x 2 g

/-- The updated scalar entry `g`. -/
def outS (g : Fin 128) : EReal :=
  x ⟨g.val, by have := g.isLt; omega⟩
    + (net Vw Vb M1 b1 M2 b2 x ⟨128 + g.val, by have := g.isLt; omega⟩ * inner Uw Vw Ub Vb x g
        + net Vw Vb M1 b1 M2 b2 x ⟨256 + g.val, by have := g.isLt; omega⟩)

/-- The updated entry `g` of channel `c`. -/
def outV (c : Fin 3) (g : Fin 128) : EReal :=
  chan x c g + net Vw Vb M1 b1 M2 b2 x ⟨g.val, by have := g.isLt; omega⟩ * U Uw Ub x c g

/-- The updated row. -/
def out (j : Fin 512) : EReal :=
  if h : j.val < 128 then outS Uw Vw Ub Vb M1 b1 M2 b2 x ⟨j.val, h⟩
  else outV Uw Vw Ub Vb M1 b1 M2 b2 x ⟨(j.val - 128) / 128, by have := j.isLt; omega⟩ ⟨(j.val - 128) % 128, Nat.mod_lt _ (by decide)⟩

theorem out_scalar (j : Fin 512) (g : Fin 128) (hj : j.val = g.val) :
    out Uw Vw Ub Vb M1 b1 M2 b2 x j = outS Uw Vw Ub Vb M1 b1 M2 b2 x g := by
  have hlt : j.val < 128 := by have := g.isLt; omega
  unfold out
  rw [dif_pos hlt]
  congr 1
  exact Fin.ext hj

theorem out_chan (j : Fin 512) (c : Fin 3) (g : Fin 128) (hj : j.val = 128 + (c.val * 128 + g.val)) :
    out Uw Vw Ub Vb M1 b1 M2 b2 x j = outV Uw Vw Ub Vb M1 b1 M2 b2 x c g := by
  have hc := c.isLt
  have hg := g.isLt
  have hge : ¬ j.val < 128 := by omega
  unfold out
  rw [dif_neg hge]
  have e1 : (⟨(j.val - 128) / 128, by have := j.isLt; omega⟩ : Fin 3) = c := Fin.ext (by show (j.val - 128) / 128 = c.val; omega)
  have e2 : (⟨(j.val - 128) % 128, Nat.mod_lt _ (by decide)⟩ : Fin 128) = g := Fin.ext (by show (j.val - 128) % 128 = g.val; omega)
  rw [e1, e2]

end

end Cert.NodeUpdate

end
-- ==== Proof.BlockRow.lean ====
/-
  One row of one block: what the kernel's body stores, entry by entry.

  The body sees a block of 1000 feature rows (1000 × 512) and the whole weight arrays.  It loads the four column
  bands of the block (the scalar part and the three vector channels), forms the two linear images of each channel,
  the length of the second image over the channels, runs the two-layer network on (lengths, scalar part), and stores
  four bands: the updated scalar part and the three updated channels.  Read at row `p`, every one of these values
  depends on row `p` of the block only, and is the corresponding term of the node update of that row.
-/
import proofs.«179087_j41291815584027_1_alg».proof.Proof.Gen.KernelIdeal.Frame
import proofs.«179087_j41291815584027_1_alg».proof.Proof.BlockProducts
import proofs.«179087_j41291815584027_1_alg».proof.Proof.NodeUpdate
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Idealize.ShloMosaic Idealize.ShloMosaic.ValueIdx Cert.KernelIdeal Cert.KernelIdeal.Gen

/-- A matrix as a function of its two coordinates. -/
abbrev mat {a b : Nat} (w : (⟨2, ![a, b]⟩ : Shape).Idx → EReal) : Fin a → Fin b → EReal := fun k g => w (ix2 k g)
/-- A vector as a function of its coordinate. -/
abbrev vec {a : Nat} (v : (⟨1, ![a]⟩ : Shape).Idx → EReal) : Fin a → EReal := fun g => v (ix1 g)
/-- Row `p` of a matrix. -/
abbrev rowOf {a b : Nat} (X : (⟨2, ![a, b]⟩ : Shape).Idx → EReal) (p : Fin a) : Fin b → EReal := fun q => X (ix2 p q)

theorem zeros2 : (![0, 0] : Fin 2 → Nat) = fun _ => 0 := funext fun a => by fin_cases a <;> rfl
theorem zeros1 : (![0] : Fin 1 → Nat) = fun _ => 0 := funext fun a => by fin_cases a <;> rfl

/-! ## Where the four column bands sit in the block -/

theorem band0 (p : Fin 1000) (g : Fin 128) :
    r0_0.emb (ix2 p g) = (ix2 p ⟨g.val, by have := g.isLt; omega⟩ : S1000x512.Idx) :=
  funext fun a => by
    match a with
    | ⟨0, _⟩ => exact Fin.ext (by show 0 + 1 * p.val = p.val; omega)
    | ⟨1, _⟩ => exact Fin.ext (by show 0 + 1 * g.val = g.val; omega)
theorem band1 (p : Fin 1000) (g : Fin 128) :
    r0_1.emb (ix2 p g) = (ix2 p ⟨128 + g.val, by have := g.isLt; omega⟩ : S1000x512.Idx) :=
  funext fun a => by
    match a with
    | ⟨0, _⟩ => exact Fin.ext (by show 0 + 1 * p.val = p.val; omega)
    | ⟨1, _⟩ => exact Fin.ext (by show 128 + 1 * g.val = 128 + g.val; omega)
theorem band2 (p : Fin 1000) (g : Fin 128) :
    r0_2.emb (ix2 p g) = (ix2 p ⟨256 + g.val, by have := g.isLt; omega⟩ : S1000x512.Idx) :=
  funext fun a => by
    match a with
    | ⟨0, _⟩ => exact Fin.ext (by show 0 + 1 * p.val = p.val; omega)
    | ⟨1, _⟩ => exact Fin.ext (by show 256 + 1 * g.val = 256 + g.val; omega)
theorem band3 (p : Fin 1000) (g : Fin 128) :
    r0_3.emb (ix2 p g) = (ix2 p ⟨384 + g.val, by have := g.isLt; omega⟩ : S1000x512.Idx) :=
  funext fun a => by
    match a with
    | ⟨0, _⟩ => exact Fin.ext (by show 0 + 1 * p.val = p.val; omega)
    | ⟨1, _⟩ => exact Fin.ext (by show 384 + 1 * g.val = 384 + g.val; omega)

section
variable (x0 : Vec Ideal S1000x512 .f32)

/-- The first band of row `p` is the row's scalar part. -/
theorem ld_scalar (p : Fin 1000) (g : Fin 128) :
    View.ld x0 r0_0 (ix2 p g) = rowOf x0 p ⟨g.val, by have := g.isLt; omega⟩ :=
  congrArg x0 (band0 p g)

/-- The second, third and fourth bands of row `p` are the row's three channels. -/
theorem ld_chan0 (p : Fin 1000) (k : Fin 128) : View.ld x0 r0_1 (ix2 p k) = NodeUpdate.chan (rowOf x0 p) 0 k := by
  refine (congrArg x0 (band1 p k)).trans ?_
  unfold NodeUpdate.chan
  exact congrArg (rowOf x0 p) (Fin.ext (by show 128 + k.val = 128 + (0 * 128 + k.val); omega))
theorem ld_chan1 (p : Fin 1000) (k : Fin 128) : View.ld x0 r0_2 (ix2 p k) = NodeUpdate.chan (rowOf x0 p) 1 k := by
  refine (congrArg x0 (band2 p k)).trans ?_
  unfold NodeUpdate.chan
  exact congrArg (rowOf x0 p) (Fin.ext (by show 256 + k.val = 128 + (1 * 128 + k.val); omega))
theorem ld_chan2 (p : Fin 1000) (k : Fin 128) : View.ld x0 r0_3 (ix2 p k) = NodeUpdate.chan (rowOf x0 p) 2 k := by
  refine (congrArg x0 (band3 p k)).trans ?_
  unfold NodeUpdate.chan
  exact congrArg (rowOf x0 p) (Fin.ext (by show 384 + k.val = 128 + (2 * 128 + k.val); omega))
end

/-! ## The linear images -/

/-- A band times a 128 × 128 matrix plus a bias row, at `(p, g)`: the affine image of the band's row `p`. -/
theorem lin_apply (v : Vec Ideal S1000x128 .f32) (w : Vec Ideal S128x128 .f32) (b : Vec Ideal S128 .f32) (p : Fin 1000) (g : Fin 128) :
    k0_pay6 v w b (ix2 p g) = NodeUpdate.affine (rowOf v p) (mat w) (vec b) g := by
  unfold k0_pay6 k0_pay3 k0_pay1 NodeUpdate.affine
  exact congrArg₂ (· + ·) (prodA _ _ p g) (bias128 b p g)

/-- The affine image of a band whose row `p` is channel `c` of a row `x` is the spec's image of that channel. -/
theorem lin_chan (v : Vec Ideal S1000x128 .f32) (w : Vec Ideal S128x128 .f32) (b : Vec Ideal S128 .f32) (p : Fin 1000)
    (x : Fin 512 → EReal) (c : Fin 3) (hv : ∀ k : Fin 128, v (ix2 p k) = NodeUpdate.chan x c k) (g : Fin 128) :
    k0_pay6 v w b (ix2 p g) = NodeUpdate.affine (NodeUpdate.chan x c) (mat w) (vec b) g := by
  rw [lin_apply]
  exact congrArg (fun r => NodeUpdate.affine r (mat w) (vec b) g) (funext hv)

/-! ## The network on a block -/

section Net
variable (s V2 sq0 sq1 : FVec Ideal S1000x128 .f32) (w5 : Vec Ideal S256x128 .f32) (b6 : Vec Ideal S128 .f32)
  (w7 : Vec Ideal S128x384 .f32) (b8 : Vec Ideal S384 .f32)

/-- The network's input block: the lengths (from two squares already formed and the third image), then the scalar band. -/
def netInBlk : FVec Ideal S1000x256 .f32 :=
  concatenate S1000x256 1 [⟨S1000x128, sqrt (addf (addf sq0 sq1) (mulf V2 V2))⟩, ⟨S1000x128, s⟩] concatenates_S1000x128_S1000x128_S1000x256_d1

/-- The hidden block before its activation. -/
def hidBlk : FVec Ideal S1000x128 .f32 :=
  addf (matmul dot_S1000x256_S256x128_S1000x128_1_0_0_1_n_n none (truncf .bf16 (netInBlk s V2 sq0 sq1) bitsLt_bf16_f32) (truncf .bf16 w5 bitsLt_bf16_f32) (constant S1000x128 .f32 0x00000000#32))
    (broadcastTo S1000x128 (shapeCast S1x128 b6 shapeCasts_S128_S1x128) broadcasts_S1x128_S1000x128)

/-- The hidden block. -/
def actBlk : FVec Ideal S1000x128 .f32 := mulf (hidBlk s V2 sq0 sq1 w5 b6) (logistic (hidBlk s V2 sq0 sq1 w5 b6))

/-- The body's 1000 × 384 network output is the second layer applied to the hidden block. -/
theorem pay14_eq : k0_pay14 s V2 sq0 sq1 w5 b6 w7 b8
    = addf (matmul dot_S1000x128_S128x384_S1000x384_1_0_0_1_n_n none (truncf .bf16 (actBlk s V2 sq0 sq1 w5 b6) bitsLt_bf16_f32) (truncf .bf16 w7 bitsLt_bf16_f32) (constant S1000x384 .f32 0x00000000#32))
        (broadcastTo S1000x384 (shapeCast S1x384 b8 shapeCasts_S384_S1x384) broadcasts_S1x384_S1000x384) := rfl

variable (x : Fin 512 → EReal) (Vw : Fin 128 → Fin 128 → EReal) (Vb : Fin 128 → EReal) (p : Fin 1000)
  (hs : ∀ g : Fin 128, s (ix2 p g) = x ⟨g.val, by have := g.isLt; omega⟩)
  (hV2 : ∀ g : Fin 128, V2 (ix2 p g) = NodeUpdate.V Vw Vb x 2 g)
  (h0 : ∀ g : Fin 128, sq0 (ix2 p g) = NodeUpdate.V Vw Vb x 0 g * NodeUpdate.V Vw Vb x 0 g)
  (h1 : ∀ g : Fin 128, sq1 (ix2 p g) = NodeUpdate.V Vw Vb x 1 g * NodeUpdate.V Vw Vb x 1 g)
include hs hV2 h0 h1

theorem netInBlk_apply (k : Fin 256) : netInBlk s V2 sq0 sq1 (ix2 p k) = NodeUpdate.netIn Vw Vb x k := by
  unfold netInBlk NodeUpdate.netIn
  by_cases hk : k.val < 128
  · rw [dif_pos hk]
    refine (concatenate_pair_apply_left (1 : Fin S1000x256.rank) _ _ concatenates_S1000x128_S1000x128_S1000x256_d1 (ix2 p k) rfl
      (ix2 p (⟨k.val, hk⟩ : Fin 128)) (fun b => ?_)).trans ?_
    · match b with
      | ⟨0, _⟩ => rfl
      | ⟨1, _⟩ => rfl
    · show Ideal.sqrt ((sq0 (ix2 p ⟨k.val, hk⟩) + sq1 (ix2 p ⟨k.val, hk⟩)) + V2 (ix2 p ⟨k.val, hk⟩) * V2 (ix2 p ⟨k.val, hk⟩)) = _
      rw [h0, h1, hV2]
      rfl
  · rw [dif_neg hk]
    have hk' : k.val - 128 < 128 := by have := k.isLt; omega
    refine (concatenate_pair_apply_right (1 : Fin S1000x256.rank) _ _ concatenates_S1000x128_S1000x128_S1000x256_d1 (ix2 p k) rfl rfl
      (ix2 p (⟨k.val - 128, hk'⟩ : Fin 128)) (fun b hb => ?_) ?_).trans (hs ⟨k.val - 128, hk'⟩)
    · match b with
      | ⟨0, _⟩ => rfl
      | ⟨1, _⟩ => exact absurd rfl hb
    · show (k.val - 128) + 128 = k.val
      omega

theorem hidBlk_apply (w5 : Vec Ideal S256x128 .f32) (b6 : Vec Ideal S128 .f32) (g : Fin 128) :
    hidBlk s V2 sq0 sq1 w5 b6 (ix2 p g) = NodeUpdate.hid Vw Vb (mat w5) (vec b6) x g := by
  unfold hidBlk NodeUpdate.hid NodeUpdate.affine
  refine (congrArg₂ (· + ·) (prodB _ _ p g) (bias128 b6 p g)).trans ?_
  refine congrArg (· + vec b6 g) (Finset.sum_congr rfl fun k _ => ?_)
  exact congrArg (· * mat w5 k g) (netInBlk_apply s V2 sq0 sq1 x Vw Vb p hs hV2 h0 h1 k)

theorem actBlk_apply (w5 : Vec Ideal S256x128 .f32) (b6 : Vec Ideal S128 .f32) (g : Fin 128) :
    actBlk s V2 sq0 sq1 w5 b6 (ix2 p g) = NodeUpdate.act Vw Vb (mat w5) (vec b6) x g := by
  unfold actBlk NodeUpdate.act
  show hidBlk s V2 sq0 sq1 w5 b6 (ix2 p g) * Ideal.logistic (hidBlk s V2 sq0 sq1 w5 b6 (ix2 p g)) = _
  rw [hidBlk_apply s V2 sq0 sq1 x Vw Vb p hs hV2 h0 h1 w5 b6 g]

/-- The network's output at `(p, j)`. -/
theorem net_apply (w5 : Vec Ideal S256x128 .f32) (b6 : Vec Ideal S128 .f32) (w7 : Vec Ideal S128x384 .f32) (b8 : Vec Ideal S384 .f32) (j : Fin 384) :
    k0_pay14 s V2 sq0 sq1 w5 b6 w7 b8 (ix2 p j) = NodeUpdate.net Vw Vb (mat w5) (vec b6) (mat w7) (vec b8) x j := by
  rw [pay14_eq]
  unfold NodeUpdate.net NodeUpdate.affine
  refine (congrArg₂ (· + ·) (prodC _ _ p j) (bias384 b8 p j)).trans ?_
  refine congrArg (· + vec b8 j) (Finset.sum_congr rfl fun k _ => ?_)
  exact congrArg (· * mat w7 k j) (actBlk_apply s V2 sq0 sq1 x Vw Vb p hs hV2 h0 h1 w5 b6 k)

end Net

/-! ## The three gates cut out of the network's output -/

theorem gate0 (N : FVec Ideal S1000x384 .f32) (p : Fin 1000) (g : Fin 128) :
    extractStridedSlice S1000x128 ![0, 0] N slices_S1000x384_o0_0_S1000x128 (ix2 p g) = N (ix2 p ⟨g.val, by have := g.isLt; omega⟩) :=
  slice2_axis1_apply 0 N slices_S1000x384_o0_0_S1000x128 p g ⟨g.val, by have := g.isLt; omega⟩ (Nat.zero_add _).symm
theorem gate1 (N : FVec Ideal S1000x384 .f32) (p : Fin 1000) (g : Fin 128) :
    extractStridedSlice S1000x128 ![0, 128] N slices_S1000x384_o0_128_S1000x128 (ix2 p g) = N (ix2 p ⟨128 + g.val, by have := g.isLt; omega⟩) :=
  slice2_axis1_apply 128 N slices_S1000x384_o0_128_S1000x128 p g ⟨128 + g.val, by have := g.isLt; omega⟩ rfl
theorem gate2 (N : FVec Ideal S1000x384 .f32) (p : Fin 1000) (g : Fin 128) :
    extractStridedSlice S1000x128 ![0, 256] N slices_S1000x384_o0_256_S1000x128 (ix2 p g) = N (ix2 p ⟨256 + g.val, by have := g.isLt; omega⟩) :=
  slice2_axis1_apply 256 N slices_S1000x384_o0_256_S1000x128 p g ⟨256 + g.val, by have := g.isLt; omega⟩ rfl

/-! ## The stored bands of row `p` -/

section Stores
variable (x0 : Vec Ideal S1000x512 .f32) (w1 : Vec Ideal S128x128 .f32) (b2 : Vec Ideal S128 .f32) (w3 : Vec Ideal S128x128 .f32) (b4 : Vec Ideal S128 .f32)
  (w5 : Vec Ideal S256x128 .f32) (b6 : Vec Ideal S128 .f32) (w7 : Vec Ideal S128x384 .f32) (b8 : Vec Ideal S384 .f32) (p : Fin 1000)

theorem U0_apply (g : Fin 128) : k0_pay6 (View.ld x0 r0_1) w1 b2 (ix2 p g) = NodeUpdate.U (mat w1) (vec b2) (rowOf x0 p) 0 g :=
  lin_chan _ w1 b2 p (rowOf x0 p) 0 (ld_chan0 x0 p) g
theorem U1_apply (g : Fin 128) : k0_pay7 (View.ld x0 r0_2) w1 b2 (ix2 p g) = NodeUpdate.U (mat w1) (vec b2) (rowOf x0 p) 1 g :=
  lin_chan _ w1 b2 p (rowOf x0 p) 1 (ld_chan1 x0 p) g
theorem U2_apply (g : Fin 128) : k0_pay8 (View.ld x0 r0_3) w1 b2 (ix2 p g) = NodeUpdate.U (mat w1) (vec b2) (rowOf x0 p) 2 g :=
  lin_chan _ w1 b2 p (rowOf x0 p) 2 (ld_chan2 x0 p) g
theorem V0_apply (g : Fin 128) : k0_pay9 (View.ld x0 r0_1) w3 b4 (ix2 p g) = NodeUpdate.V (mat w3) (vec b4) (rowOf x0 p) 0 g :=
  lin_chan _ w3 b4 p (rowOf x0 p) 0 (ld_chan0 x0 p) g
theorem V1_apply (g : Fin 128) : k0_pay10 (View.ld x0 r0_2) w3 b4 (ix2 p g) = NodeUpdate.V (mat w3) (vec b4) (rowOf x0 p) 1 g :=
  lin_chan _ w3 b4 p (rowOf x0 p) 1 (ld_chan1 x0 p) g
theorem V2_apply (g : Fin 128) : k0_pay11 (View.ld x0 r0_3) w3 b4 (ix2 p g) = NodeUpdate.V (mat w3) (vec b4) (rowOf x0 p) 2 g :=
  lin_chan _ w3 b4 p (rowOf x0 p) 2 (ld_chan2 x0 p) g
theorem sq0_apply (g : Fin 128) : k0_pay12 (View.ld x0 r0_1) w3 b4 (ix2 p g)
    = NodeUpdate.V (mat w3) (vec b4) (rowOf x0 p) 0 g * NodeUpdate.V (mat w3) (vec b4) (rowOf x0 p) 0 g :=
  congrArg₂ (· * ·) (V0_apply x0 w3 b4 p g) (V0_apply x0 w3 b4 p g)
theorem sq1_apply (g : Fin 128) : k0_pay13 (View.ld x0 r0_2) w3 b4 (ix2 p g)
    = NodeUpdate.V (mat w3) (vec b4) (rowOf x0 p) 1 g * NodeUpdate.V (mat w3) (vec b4) (rowOf x0 p) 1 g :=
  congrArg₂ (· * ·) (V1_apply x0 w3 b4 p g) (V1_apply x0 w3 b4 p g)

/-- The network's output on row `p` of the block. -/
theorem netB_apply (j : Fin 384) :
    (k0_pay14 (View.ld x0 r0_0) (k0_pay11 (View.ld x0 r0_3) w3 b4) (k0_pay12 (View.ld x0 r0_1) w3 b4) (k0_pay13 (View.ld x0 r0_2) w3 b4) w5 b6 w7 b8) (ix2 p j)
      = NodeUpdate.net (mat w3) (vec b4) (mat w5) (vec b6) (mat w7) (vec b8) (rowOf x0 p) j :=
  net_apply _ _ _ _ (rowOf x0 p) (mat w3) (vec b4) p (ld_scalar x0 p) (V2_apply x0 w3 b4 p) (sq0_apply x0 w3 b4 p) (sq1_apply x0 w3 b4 p) w5 b6 w7 b8 j

/-- The first stored band: the updated scalar part. -/
theorem store_scalar (g : Fin 128) :
    k0_pay16 (View.ld x0 r0_0) (k0_pay6 (View.ld x0 r0_1) w1 b2) (k0_pay7 (View.ld x0 r0_2) w1 b2) (k0_pay8 (View.ld x0 r0_3) w1 b2)
        (k0_pay9 (View.ld x0 r0_1) w3 b4) (k0_pay10 (View.ld x0 r0_2) w3 b4) (k0_pay11 (View.ld x0 r0_3) w3 b4)
        (k0_pay12 (View.ld x0 r0_1) w3 b4) (k0_pay13 (View.ld x0 r0_2) w3 b4) w5 b6 w7 b8 (ix2 p g)
      = NodeUpdate.out (mat w1) (mat w3) (vec b2) (vec b4) (mat w5) (vec b6) (mat w7) (vec b8) (rowOf x0 p) ⟨g.val, by have := g.isLt; omega⟩ := by
  rw [NodeUpdate.out_scalar (mat w1) (mat w3) (vec b2) (vec b4) (mat w5) (vec b6) (mat w7) (vec b8) (rowOf x0 p) ⟨g.val, by have := g.isLt; omega⟩ g rfl]
  unfold NodeUpdate.outS NodeUpdate.inner
  exact congrArg₂ (· + ·) (ld_scalar x0 p g)
    (congrArg₂ (· + ·)
      (congrArg₂ (· * ·) ((gate1 _ p g).trans (netB_apply x0 w3 b4 w5 b6 w7 b8 p _))
        (congrArg₂ (· + ·)
          (congrArg₂ (· + ·)
            (congrArg₂ (· * ·) (U0_apply x0 w1 b2 p g) (V0_apply x0 w3 b4 p g))
            (congrArg₂ (· * ·) (U1_apply x0 w1 b2 p g) (V1_apply x0 w3 b4 p g)))
          (congrArg₂ (· * ·) (U2_apply x0 w1 b2 p g) (V2_apply x0 w3 b4 p g))))
      ((gate2 _ p g).trans (netB_apply x0 w3 b4 w5 b6 w7 b8 p _)))

/-- The second stored band: the updated first channel. -/
theorem store_chan0 (g : Fin 128) :
    k0_pay17 (View.ld x0 r0_0) (View.ld x0 r0_1) (k0_pay6 (View.ld x0 r0_1) w1 b2) (k0_pay11 (View.ld x0 r0_3) w3 b4)
        (k0_pay12 (View.ld x0 r0_1) w3 b4) (k0_pay13 (View.ld x0 r0_2) w3 b4) w5 b6 w7 b8 (ix2 p g)
      = NodeUpdate.out (mat w1) (mat w3) (vec b2) (vec b4) (mat w5) (vec b6) (mat w7) (vec b8) (rowOf x0 p) ⟨128 + g.val, by have := g.isLt; omega⟩ := by
  rw [NodeUpdate.out_chan (mat w1) (mat w3) (vec b2) (vec b4) (mat w5) (vec b6) (mat w7) (vec b8) (rowOf x0 p) ⟨128 + g.val, by have := g.isLt; omega⟩ 0 g (by show 128 + g.val = 128 + (0 * 128 + g.val); omega)]
  unfold NodeUpdate.outV
  exact congrArg₂ (· + ·) (ld_chan0 x0 p g)
    (congrArg₂ (· * ·) ((gate0 _ p g).trans (netB_apply x0 w3 b4 w5 b6 w7 b8 p _)) (U0_apply x0 w1 b2 p g))

/-- The third stored band: the updated second channel. -/
theorem store_chan1 (g : Fin 128) :
    k0_pay18 (View.ld x0 r0_0) (View.ld x0 r0_2) (k0_pay7 (View.ld x0 r0_2) w1 b2) (k0_pay11 (View.ld x0 r0_3) w3 b4)
        (k0_pay12 (View.ld x0 r0_1) w3 b4) (k0_pay13 (View.ld x0 r0_2) w3 b4) w5 b6 w7 b8 (ix2 p g)
      = NodeUpdate.out (mat w1) (mat w3) (vec b2) (vec b4) (mat w5) (vec b6) (mat w7) (vec b8) (rowOf x0 p) ⟨256 + g.val, by have := g.isLt; omega⟩ := by
  rw [NodeUpdate.out_chan (mat w1) (mat w3) (vec b2) (vec b4) (mat w5) (vec b6) (mat w7) (vec b8) (rowOf x0 p) ⟨256 + g.val, by have := g.isLt; omega⟩ 1 g (by show 256 + g.val = 128 + (1 * 128 + g.val); omega)]
  unfold NodeUpdate.outV
  exact congrArg₂ (· + ·) (ld_chan1 x0 p g)
    (congrArg₂ (· * ·) ((gate0 _ p g).trans (netB_apply x0 w3 b4 w5 b6 w7 b8 p _)) (U1_apply x0 w1 b2 p g))

/-- The fourth stored band: the updated third channel. -/
theorem store_chan2 (g : Fin 128) :
    k0_pay19 (View.ld x0 r0_0) (View.ld x0 r0_3) (k0_pay8 (View.ld x0 r0_3) w1 b2) (k0_pay11 (View.ld x0 r0_3) w3 b4)
        (k0_pay12 (View.ld x0 r0_1) w3 b4) (k0_pay13 (View.ld x0 r0_2) w3 b4) w5 b6 w7 b8 (ix2 p g)
      = NodeUpdate.out (mat w1) (mat w3) (vec b2) (vec b4) (mat w5) (vec b6) (mat w7) (vec b8) (rowOf x0 p) ⟨384 + g.val, by have := g.isLt; omega⟩ := by
  rw [NodeUpdate.out_chan (mat w1) (mat w3) (vec b2) (vec b4) (mat w5) (vec b6) (mat w7) (vec b8) (rowOf x0 p) ⟨384 + g.val, by have := g.isLt; omega⟩ 2 g (by show 384 + g.val = 128 + (2 * 128 + g.val); omega)]
  unfold NodeUpdate.outV
  exact congrArg₂ (· + ·) (ld_chan2 x0 p g)
    (congrArg₂ (· * ·) ((gate0 _ p g).trans (netB_apply x0 w3 b4 w5 b6 w7 b8 p _)) (U2_apply x0 w1 b2 p g))

end Stores

/-! ## The block the body leaves -/

section Block
variable (x0 : Vec Ideal S1000x512 .f32) (w1 : Vec Ideal S128x128 .f32) (b2 : Vec Ideal S128 .f32) (w3 : Vec Ideal S128x128 .f32) (b4 : Vec Ideal S128 .f32)
  (w5 : Vec Ideal S256x128 .f32) (b6 : Vec Ideal S128 .f32) (w7 : Vec Ideal S128x384 .f32) (b8 : Vec Ideal S384 .f32)

/-- The block of updated rows: entry `(p, q)` is entry `q` of the update of row `p`. -/
def updBlk : Vec Ideal S1000x512 .f32 := fun y =>
  NodeUpdate.out (mat w1) (mat w3) (vec b2) (vec b4) (mat w5) (vec b6) (mat w7) (vec b8) (rowOf x0 ⟨(y 0).val, idx2_lt0 y⟩) ⟨(y 1).val, idx2_lt1 y⟩

/-- The four stores write the four bands of the block of updated rows, and the bands tile it: the body leaves that
    block. -/
theorem out0_9_eq : out0_9 x0 w1 b2 w3 b4 w5 b6 w7 b8 = updBlk x0 w1 b2 w3 b4 w5 b6 w7 b8 := by
  funext y
  unfold out0_9
  simp only [View.ld_unit_zero (S := S128x128) zeros2, View.ld_unit_zero (S := S128) zeros1, View.ld_unit_zero (S := S256x128) zeros2,
    View.ld_unit_zero (S := S128x384) zeros2, View.ld_unit_zero (S := S384) zeros1]
  refine View.canon_apply_of_pieces (Val := Elt Ideal) (e := .f32) (updBlk x0 w1 b2 w3 b4 w5 b6 w7 b8) _ ?_ y (cover0_9 _ _ _ _ y)
  intro pc hpc
  simp only [List.mem_cons, List.mem_singleton, List.not_mem_nil, or_false] at hpc
  rcases hpc with rfl | rfl | rfl | rfl
  · intro z
    obtain ⟨p, g, rfl⟩ : ∃ (p : Fin 1000) (g : Fin 128), z = ix2 p g := ⟨z 0, z 1, eq_ix2 z⟩
    show _ = updBlk x0 w1 b2 w3 b4 w5 b6 w7 b8 (r0_3.emb (ix2 p g))
    rw [band3]
    exact store_chan2 x0 w1 b2 w3 b4 w5 b6 w7 b8 p g
  · intro z
    obtain ⟨p, g, rfl⟩ : ∃ (p : Fin 1000) (g : Fin 128), z = ix2 p g := ⟨z 0, z 1, eq_ix2 z⟩
    show _ = updBlk x0 w1 b2 w3 b4 w5 b6 w7 b8 (r0_2.emb (ix2 p g))
    rw [band2]
    exact store_chan1 x0 w1 b2 w3 b4 w5 b6 w7 b8 p g
  · intro z
    obtain ⟨p, g, rfl⟩ : ∃ (p : Fin 1000) (g : Fin 128), z = ix2 p g := ⟨z 0, z 1, eq_ix2 z⟩
    show _ = updBlk x0 w1 b2 w3 b4 w5 b6 w7 b8 (r0_1.emb (ix2 p g))
    rw [band1]
    exact store_chan0 x0 w1 b2 w3 b4 w5 b6 w7 b8 p g
  · intro z
    obtain ⟨p, g, rfl⟩ : ∃ (p : Fin 1000) (g : Fin 128), z = ix2 p g := ⟨z 0, z 1, eq_ix2 z⟩
    show _ = updBlk x0 w1 b2 w3 b4 w5 b6 w7 b8 (r0_0.emb (ix2 p g))
    rw [band0]
    exact store_scalar x0 w1 b2 w3 b4 w5 b6 w7 b8 p g

end Block

end Cert.KernelIdeal.RowValue

end
-- ==== Proof.ArrayValue.lean ====
/-
  From blocks to the array: what the kernel's result array holds after the run.

  The grid has 200 points; point `t` fetches rows `1000 t … 1000 t + 999` of the feature array (all 512 columns)
  and every weight array whole, and writes back the same rows of the result.  What it writes is the block of updated
  rows (the body's four stored bands), so row `1000 t + p` of the result is the update of row `1000 t + p` of the
  feature array; the 200 blocks tile the 200000 rows, so this describes the whole result array.
-/
import proofs.«179087_j41291815584027_1_alg».proof.Proof.Gen.KernelIdeal.Value
import proofs.«179087_j41291815584027_1_alg».proof.Proof.BlockRow

noncomputable section

namespace Cert.KernelIdeal.RowValue

open Cert.KernelIdeal Cert.KernelIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The array of updated rows: entry `(n, q)` is entry `q` of the update of row `n`. -/
def updArr (a0 : Vec Ideal S200000x512 .f32) (a1 : Vec Ideal S128x128 .f32) (a2 : Vec Ideal S128 .f32) (a3 : Vec Ideal S128x128 .f32) (a4 : Vec Ideal S128 .f32)
    (a5 : Vec Ideal S256x128 .f32) (a6 : Vec Ideal S128 .f32) (a7 : Vec Ideal S128x384 .f32) (a8 : Vec Ideal S384 .f32) : Vec Ideal S200000x512 .f32 := fun i =>
  NodeUpdate.out (mat a1) (mat a3) (vec a2) (vec a4) (mat a5) (vec a6) (mat a7) (vec a8) (rowOf a0 ⟨(i 0).val, idx2_lt0 i⟩) ⟨(i 1).val, idx2_lt1 i⟩

/-- The printed index maps over the grid: the feature and result windows sit at block row `t`, block column 0; every
    weight window at block 0. -/
theorem idx_facts : ∀ t : Fin cfg0.N,
    win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

theorem points : cfg0.N = 200 := N_0

/-! ## The blocks the body is given -/

/-- Row `p` of the feature block at point `t` is row `1000 t + p` of the feature array. -/
theorem blk0_apply (c : Dev nD) (t : Fin cfg0.N) (p : Fin 1000) (q : Fin 512) (hr : t.val * 1000 + p.val < 200000) :
    (iblk m c 0 t : Vec Ideal S1000x512 .f32) (ix2 p q) = (V m c main_arg0 : Vec Ideal S200000x512 .f32) (ix2 ⟨t.val * 1000 + p.val, hr⟩ q) := by
  obtain ⟨e0, e1, -⟩ := idx_facts t
  show (V m c main_arg0 : Vec Ideal S200000x512 .f32) (((cfg0.win 0).blk t).view.emb (ix2 p q)) = _
  refine congrArg (V m c main_arg0 : Vec Ideal S200000x512 .f32) (funext fun a => Fin.ext ?_)
  match a with
  | ⟨0, _⟩ => show win0_0.index t (0 : Fin 2) * 1000 + 1 * p.val = t.val * 1000 + p.val; omega
  | ⟨1, _⟩ => show win0_0.index t (1 : Fin 2) * 512 + 1 * q.val = q.val; omega

theorem blk1_eq (c : Dev nD) (t : Fin cfg0.N) : (iblk m c 1 t : Vec Ideal S128x128 .f32) = V m c main_arg1 := by
  obtain ⟨-, -, -, -, e0, e1, -⟩ := idx_facts t
  funext y
  show (V m c main_arg1 : Vec Ideal S128x128 .f32) (((cfg0.win 1).blk t).view.emb y) = _
  refine congrArg (V m c main_arg1 : Vec Ideal S128x128 .f32) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega
theorem blk2_eq (c : Dev nD) (t : Fin cfg0.N) : (iblk m c 2 t : Vec Ideal S128 .f32) = V m c main_arg2 := by
  obtain ⟨-, -, -, -, -, -, e0, -⟩ := idx_facts t
  funext y
  show (V m c main_arg2 : Vec Ideal S128 .f32) (((cfg0.win 2).blk t).view.emb y) = _
  refine congrArg (V m c main_arg2 : Vec Ideal S128 .f32) (funext fun a => Fin.ext ?_)
  match a with
  | ⟨0, _⟩ => show win0_2.index t (0 : Fin 1) * 128 + 1 * (y 0).val = (y 0).val; omega
theorem blk3_eq (c : Dev nD) (t : Fin cfg0.N) : (iblk m c 3 t : Vec Ideal S128x128 .f32) = V m c main_arg3 := by
  obtain ⟨-, -, -, -, -, -, -, e0, e1, -⟩ := idx_facts t
  funext y
  show (V m c main_arg3 : Vec Ideal S128x128 .f32) (((cfg0.win 3).blk t).view.emb y) = _
  refine congrArg (V m c main_arg3 : Vec Ideal S128x128 .f32) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega
theorem blk4_eq (c : Dev nD) (t : Fin cfg0.N) : (iblk m c 4 t : Vec Ideal S128 .f32) = V m c main_arg4 := by
  obtain ⟨-, -, -, -, -, -, -, -, -, e0, -⟩ := idx_facts t
  funext y
  show (V m c main_arg4 : Vec Ideal S128 .f32) (((cfg0.win 4).blk t).view.emb y) = _
  refine congrArg (V m c main_arg4 : Vec Ideal S128 .f32) (funext fun a => Fin.ext ?_)
  match a with
  | ⟨0, _⟩ => show win0_4.index t (0 : Fin 1) * 128 + 1 * (y 0).val = (y 0).val; omega
theorem blk5_eq (c : Dev nD) (t : Fin cfg0.N) : (iblk m c 5 t : Vec Ideal S256x128 .f32) = V m c main_arg5 := by
  obtain ⟨-, -, -, -, -, -, -, -, -, -, e0, e1, -⟩ := idx_facts t
  funext y
  show (V m c main_arg5 : Vec Ideal S256x128 .f32) (((cfg0.win 5).blk t).view.emb y) = _
  refine congrArg (V m c main_arg5 : Vec Ideal S256x128 .f32) (funext fun a => Fin.ext ?_)
  match a with
  | ⟨0, _⟩ => show win0_5.index t (0 : Fin 2) * 256 + 1 * (y 0).val = (y 0).val; omega
  | ⟨1, _⟩ => show win0_5.index t (1 : Fin 2) * 128 + 1 * (y 1).val = (y 1).val; omega
theorem blk6_eq (c : Dev nD) (t : Fin cfg0.N) : (iblk m c 6 t : Vec Ideal S128 .f32) = V m c main_arg6 := by
  obtain ⟨-, -, -, -, -, -, -, -, -, -, -, -, e0, -⟩ := idx_facts t
  funext y
  show (V m c main_arg6 : Vec Ideal S128 .f32) (((cfg0.win 6).blk t).view.emb y) = _
  refine congrArg (V m c main_arg6 : Vec Ideal S128 .f32) (funext fun a => Fin.ext ?_)
  match a with
  | ⟨0, _⟩ => show win0_6.index t (0 : Fin 1) * 128 + 1 * (y 0).val = (y 0).val; omega
theorem blk7_eq (c : Dev nD) (t : Fin cfg0.N) : (iblk m c 7 t : Vec Ideal S128x384 .f32) = V m c main_arg7 := by
  obtain ⟨-, -, -, -, -, -, -, -, -, -, -, -, -, e0, e1, -⟩ := idx_facts t
  funext y
  show (V m c main_arg7 : Vec Ideal S128x384 .f32) (((cfg0.win 7).blk t).view.emb y) = _
  refine congrArg (V m c main_arg7 : Vec Ideal S128x384 .f32) (funext fun a => Fin.ext ?_)
  match a with
  | ⟨0, _⟩ => show win0_7.index t (0 : Fin 2) * 128 + 1 * (y 0).val = (y 0).val; omega
  | ⟨1, _⟩ => show win0_7.index t (1 : Fin 2) * 384 + 1 * (y 1).val = (y 1).val; omega
theorem blk8_eq (c : Dev nD) (t : Fin cfg0.N) : (iblk m c 8 t : Vec Ideal S384 .f32) = V m c main_arg8 := by
  obtain ⟨-, -, -, -, -, -, -, -, -, -, -, -, -, -, -, e0⟩ := idx_facts t
  funext y
  show (V m c main_arg8 : Vec Ideal S384 .f32) (((cfg0.win 8).blk t).view.emb y) = _
  refine congrArg (V m c main_arg8 : Vec Ideal S384 .f32) (funext fun a => Fin.ext ?_)
  match a with
  | ⟨0, _⟩ => show win0_8.index t (0 : Fin 1) * 384 + 1 * (y 0).val = (y 0).val; omega

/-! ## What a point writes back -/

/-- Point `t` writes back block `t` of the array of updated rows. -/
theorem flushed_eq (c : Dev nD) (t : Fin cfg0.N) :
    (dats m 0 c).flushed 9 t = ((cfg0.win 9).blk t).view.read (Elt Ideal) (updArr (V m c main_arg0) (V m c main_arg1) (V m c main_arg2) (V m c main_arg3) (V m c main_arg4) (V m c main_arg5) (V m c main_arg6) (V m c main_arg7) (V m c main_arg8)) := by
  rw [Value.flushed9, out0_9_eq (iblk m c 0 t) (iblk m c 1 t) (iblk m c 2 t) (iblk m c 3 t) (iblk m c 4 t) (iblk m c 5 t) (iblk m c 6 t) (iblk m c 7 t) (iblk m c 8 t)]
  have ht : t.val < 200 := Nat.lt_of_lt_of_eq t.isLt points
  obtain ⟨-, -, e0, e1, -⟩ := idx_facts t
  funext j
  obtain ⟨p, q, rfl⟩ : ∃ (p : Fin 1000) (q : Fin 512), j = ix2 p q := ⟨j 0, j 1, eq_ix2 j⟩
  have hr : t.val * 1000 + p.val < 200000 := by have := p.isLt; omega
  show updBlk (iblk m c 0 t) (iblk m c 1 t) (iblk m c 2 t) (iblk m c 3 t) (iblk m c 4 t) (iblk m c 5 t) (iblk m c 6 t) (iblk m c 7 t) (iblk m c 8 t) (ix2 p q) = updArr (V m c main_arg0) (V m c main_arg1) (V m c main_arg2) (V m c main_arg3) (V m c main_arg4) (V m c main_arg5) (V m c main_arg6) (V m c main_arg7) (V m c main_arg8) (((cfg0.win 9).blk t).view.emb (ix2 p q))
  have hemb : ((cfg0.win 9).blk t).view.emb (ix2 p q) = (ix2 ⟨t.val * 1000 + p.val, hr⟩ q : S200000x512.Idx) := funext fun a => Fin.ext (by
    match a with
    | ⟨0, _⟩ => show win0_9.index t (0 : Fin 2) * 1000 + 1 * p.val = t.val * 1000 + p.val; omega
    | ⟨1, _⟩ => show win0_9.index t (1 : Fin 2) * 512 + 1 * q.val = q.val; omega)
  rw [hemb]
  unfold updBlk updArr
  rw [blk1_eq, blk2_eq, blk3_eq, blk4_eq, blk5_eq, blk6_eq, blk7_eq, blk8_eq]
  refine congrArg (fun r => NodeUpdate.out (mat (V m c main_arg1)) (mat (V m c main_arg3)) (vec (V m c main_arg2)) (vec (V m c main_arg4)) (mat (V m c main_arg5)) (vec (V m c main_arg6)) (mat (V m c main_arg7)) (vec (V m c main_arg8)) r q) ?_
  funext q'
  exact blk0_apply m c t p q' hr

/-! ## The cover, and the array after the run -/

/-- An index of the array is in point `t`'s block iff each coordinate is in the block's range on its axis. -/
theorem mem_blk (t : Fin cfg0.N) (i : S200000x512.Idx) :
    i ∈ ((cfg0.win 9).blk t).view.set ↔ ∀ a : Fin 2, win0_9.index t a * S1000x512.size a ≤ (i a).val ∧ (i a).val < win0_9.index t a * S1000x512.size a + S1000x512.size a := by
  show i ∈ ((View.whole main_v0).slice (win0_9.rect t)).set ↔ _
  rw [View.set_slice_whole, Rect.mem_set_unit]
  exact Iff.rfl

/-- Row `n` lies in the block of point `n / 1000`. -/
theorem cover (i : S200000x512.Idx) : ∃ t : Fin cfg0.N, (cfg0.win 9).flush t = true ∧ i ∈ ((cfg0.win 9).blk t).view.set := by
  have h0 : (i 0).val < 200000 := (i 0).isLt
  have h1 : (i 1).val < 512 := (i 1).isLt
  have hN := points
  let t : Fin cfg0.N := ⟨(i 0).val / 1000, by rw [hN]; omega⟩
  have htv : t.val = (i 0).val / 1000 := rfl
  obtain ⟨-, -, e0, e1, -⟩ := idx_facts t
  refine ⟨t, flush0_9 t, ?_⟩
  rw [mem_blk]
  intro a
  match a with
  | ⟨0, _⟩ => show win0_9.index t (0 : Fin 2) * 1000 ≤ (i 0).val ∧ (i 0).val < win0_9.index t (0 : Fin 2) * 1000 + 1000; omega
  | ⟨1, _⟩ => show win0_9.index t (1 : Fin 2) * 512 ≤ (i 1).val ∧ (i 1).val < win0_9.index t (1 : Fin 2) * 512 + 512; omega

/-- The result array after the run is the array of updated rows. -/
theorem final (c : Dev nD) : (dats m 0 c).arrAt 9 cfg0.N = updArr (V m c main_arg0) (V m c main_arg1) (V m c main_arg2) (V m c main_arg3) (V m c main_arg4) (V m c main_arg5) (V m c main_arg6) (V m c main_arg7) (V m c main_arg8) :=
  (dats m 0 c).arrAt_eq_of_cover 9 (updArr (V m c main_arg0) (V m c main_arg1) (V m c main_arg2) (V m c main_arg3) (V m c main_arg4) (V m c main_arg5) (V m c main_arg6) (V m c main_arg7) (V m c main_arg8)) (fun t _ => flushed_eq m c t) cover

/-- The run, with the result array named: every execution ends with the result at the array of updated rows of the
    arguments as launched, and the arguments unchanged. -/
theorem run : θ_run defs (onTc (τ := τ) (main (F := Ideal))) ⟨m, fun _ => 0, ρ⟩ fun r => ∀ c : Dev nD,
      r.2.mem ((c : Thread nD τ).loc main_v0) = updArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.RowValue

end
-- ==== Proof.RefRow.lean ====
/-
  The reference program read at one row.

  Every buffer of the reference is read at an index given by explicit coordinates (a row `n`, and a position in
  that row), and identified with the corresponding quantity of the one-row update: the channels of the vector
  part, the two linear images, the lengths, the network's input, hidden layer and output, the inner product, and
  finally the updated row.
-/
import proofs.«179087_j41291815584027_1_alg».proof.Proof.Gen.ReferenceIdeal.Read
import proofs.«179087_j41291815584027_1_alg».proof.Proof.NodeUpdate
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RowValue

open Idealize.ShloMosaic Idealize.ShloMosaic.ValueIdx Cert.ReferenceIdeal Cert.ReferenceIdeal.Read
open Cert.ReferenceIdeal.Gen

/-- A weight matrix as a function of its two coordinates. -/
abbrev mat {K G : Nat} (w : (⟨2, ![K, G]⟩ : Shape).Idx → EReal) : Fin K → Fin G → EReal := fun k g => w (ix2 k g)

/-- A bias vector as a function of its coordinate. -/
abbrev vec {G : Nat} (b : (⟨1, ![G]⟩ : Shape).Idx → EReal) : Fin G → EReal := fun g => b (ix1 g)

/-- Row `n` of the feature array. -/
abbrev row (x0 : S200000x512.Idx → EReal) (n : Fin 200000) : Fin 512 → EReal := fun q => x0 (ix2 n q)

/-- The bit pattern of the constant one. -/
theorem one_bits : Ideal.ofBits .f32 0x3F800000#32 = 1 := by
  simp [Ideal.ofBits, Ideal.ieee, -EReal.coe_mul]; norm_num

section
variable (x0 : S200000x512.Idx → EReal) (x1 : S128x128.Idx → EReal) (x2 : S128.Idx → EReal)
  (x3 : S128x128.Idx → EReal) (x4 : S128.Idx → EReal) (x5 : S256x128.Idx → EReal) (x6 : S128.Idx → EReal)
  (x7 : S128x384.Idx → EReal) (x8 : S384.Idx → EReal)

/-- The reshaped vector part at `(n, c, k)` is channel `c` of row `n` at `k`: position `128 + (128 c + k)`. -/
theorem v2_at (n : Fin 200000) (c : Fin 3) (k : Fin 128) :
    val_main_v2 (F := Ideal) x0 (ix3 n c k) = Cert.NodeUpdate.chan (row x0 n) c k := by
  rw [val_main_v2_apply, val_main_v1_apply]
  unfold Cert.NodeUpdate.chan
  have hn := n.isLt
  have hc := c.isLt
  have hk := k.isLt
  refine congrArg x0 (funext fun a => ?_)
  match a with
  | ⟨0, _⟩ => exact Fin.ext (by show ((n.val * 3 + c.val) * 128 + k.val) / 384 = n.val; omega)
  | ⟨1, _⟩ => exact Fin.ext (by show 128 + ((n.val * 3 + c.val) * 128 + k.val) % 384 = 128 + (c.val * 128 + k.val); omega)

/-- The first linear image. -/
theorem v6_at (n : Fin 200000) (c : Fin 3) (g : Fin 128) :
    val_main_v6 (F := Ideal) x0 x1 x2 (ix3 n c g) = Cert.NodeUpdate.U (mat x1) (vec x2) (row x0 n) c g := by
  rw [val_main_v6_apply, val_main_v3_apply, val_main_v5_apply, val_main_v4_apply]
  unfold Cert.NodeUpdate.U Cert.NodeUpdate.affine
  refine congrArg₂ (· + ·) (Finset.sum_congr rfl fun k _ => ?_) ?_
  · have e1 : lidx_main_v3 (ix3 n c g) k = ix3 n c k := funext fun a => by
      match a with
      | ⟨0, _⟩ => rfl
      | ⟨1, _⟩ => rfl
      | ⟨2, _⟩ => rfl
    have e2 : ridx_main_v3 (ix3 n c g) k = ix2 k g := funext fun a => by
      match a with
      | ⟨0, _⟩ => rfl
      | ⟨1, _⟩ => rfl
    rw [e1, e2, v2_at]
  · exact congrArg x2 (funext fun a => by
      match a with
      | ⟨0, _⟩ => rfl)

/-- The second linear image. -/
theorem v10_at (n : Fin 200000) (c : Fin 3) (g : Fin 128) :
    val_main_v10 (F := Ideal) x0 x3 x4 (ix3 n c g) = Cert.NodeUpdate.V (mat x3) (vec x4) (row x0 n) c g := by
  rw [val_main_v10_apply, val_main_v7_apply, val_main_v9_apply, val_main_v8_apply]
  unfold Cert.NodeUpdate.V Cert.NodeUpdate.affine
  refine congrArg₂ (· + ·) (Finset.sum_congr rfl fun k _ => ?_) ?_
  · have e1 : lidx_main_v7 (ix3 n c g) k = ix3 n c k := funext fun a => by
      match a with
      | ⟨0, _⟩ => rfl
      | ⟨1, _⟩ => rfl
      | ⟨2, _⟩ => rfl
    have e2 : ridx_main_v7 (ix3 n c g) k = ix2 k g := funext fun a => by
      match a with
      | ⟨0, _⟩ => rfl
      | ⟨1, _⟩ => rfl
    rw [e1, e2, v2_at]
  · exact congrArg x4 (funext fun a => by
      match a with
      | ⟨0, _⟩ => rfl)

/-- The lengths: zero plus the three squares, in the order `(a + b) + c`, under the square root. -/
theorem v11_at (n : Fin 200000) (g : Fin 128) :
    val_main_v11 (F := Ideal) x0 x3 x4 (ix2 n g) = Cert.NodeUpdate.nrm (mat x3) (vec x4) (row x0 n) g := by
  have e : ∀ k : Fin 3, val_main_call0_v0 (F := Ideal) x0 x3 x4 (idx_main_call0_v1 (ix2 n g) k)
      = Cert.NodeUpdate.V (mat x3) (vec x4) (row x0 n) k g * Cert.NodeUpdate.V (mat x3) (vec x4) (row x0 n) k g := fun k => by
    have ei : idx_main_call0_v1 (ix2 n g) k = ix3 n k g := funext fun a => by
      match a with
      | ⟨0, _⟩ => rfl
      | ⟨1, _⟩ => rfl
      | ⟨2, _⟩ => rfl
    rw [ei, val_main_call0_v0_apply, v10_at]
    rfl
  rw [val_main_v11_apply, val_main_call0_v1_apply, val_main_call0_cst_apply, Fin.sum_univ_three, e 0, e 1, e 2]
  unfold Cert.NodeUpdate.nrm
  rw [Ideal.hostUnary_sqrt_def, Ideal.ofBits_def, Ideal.ofBits_zero_f32, zero_add]

/-- The network's input: the lengths on positions below 128, the scalar part of the row after them. -/
theorem v12_at (n : Fin 200000) (k : Fin 256) :
    val_main_v12 (F := Ideal) x0 x3 x4 (ix2 n k) = Cert.NodeUpdate.netIn (mat x3) (vec x4) (row x0 n) k := by
  have hk := k.isLt
  unfold Cert.NodeUpdate.netIn
  by_cases h : k.val < 128
  · rw [dif_pos h]
    unfold val_main_v12
    refine (concatenate_pair_apply_left (1 : Fin S200000x256.rank) _ _ concatenates_S200000x128_S200000x128_S200000x256_d1
      (ix2 n k) rfl (ix2 n (⟨k.val, h⟩ : Fin 128)) (fun b => by
        match b with
        | ⟨0, _⟩ => rfl
        | ⟨1, _⟩ => rfl)).trans ?_
    exact v11_at x0 x3 x4 n ⟨k.val, h⟩
  · rw [dif_neg h]
    unfold val_main_v12
    refine (concatenate_pair_apply_right (1 : Fin S200000x256.rank) _ _ concatenates_S200000x128_S200000x128_S200000x256_d1
      (ix2 n k) rfl rfl (ix2 n (⟨k.val - 128, by omega⟩ : Fin 128)) (fun b hb => by
        match b, hb with
        | ⟨0, _⟩, _ => rfl
        | ⟨1, _⟩, hb => exact absurd rfl hb) (by show k.val - 128 + 128 = k.val; omega)).trans ?_
    rw [val_main_v0_apply]
    refine congrArg x0 (funext fun a => ?_)
    match a with
    | ⟨0, _⟩ => rfl
    | ⟨1, _⟩ => rfl

/-- The hidden layer before its activation. -/
theorem v16_at (n : Fin 200000) (g : Fin 128) :
    val_main_v16 (F := Ideal) x0 x3 x4 x5 x6 (ix2 n g)
      = Cert.NodeUpdate.hid (mat x3) (vec x4) (mat x5) (vec x6) (row x0 n) g := by
  rw [val_main_v16_apply, val_main_v13_apply, val_main_v15_apply, val_main_v14_apply]
  unfold Cert.NodeUpdate.hid Cert.NodeUpdate.affine
  refine congrArg₂ (· + ·) (Finset.sum_congr rfl fun k _ => ?_) ?_
  · have e1 : lidx_main_v13 (ix2 n g) k = ix2 n k := funext fun a => by
      match a with
      | ⟨0, _⟩ => rfl
      | ⟨1, _⟩ => rfl
    have e2 : ridx_main_v13 (ix2 n g) k = ix2 k g := funext fun a => by
      match a with
      | ⟨0, _⟩ => rfl
      | ⟨1, _⟩ => rfl
    rw [e1, e2, v12_at]
  · exact congrArg x6 (funext fun a => by
      match a with
      | ⟨0, _⟩ => rfl)

/-- The hidden layer: `t` times `1 / (1 + e^(-t))`, which is how the logistic function is defined. -/
theorem v17_at (n : Fin 200000) (g : Fin 128) :
    val_main_v17 (F := Ideal) x0 x3 x4 x5 x6 (ix2 n g)
      = Cert.NodeUpdate.act (mat x3) (vec x4) (mat x5) (vec x6) (row x0 n) g := by
  rw [val_main_v17_apply, val_main_call1_v5_apply, val_main_call1_v4_apply, val_main_call1_cst_0_apply,
    val_main_call1_v3_apply, val_main_call1_v2_apply, val_main_call1_cst_apply, val_main_call1_v1_apply,
    val_main_call1_v0_apply, v16_at]
  unfold Cert.NodeUpdate.act Ideal.logistic
  rw [Ideal.ofBits_def, one_bits]
  rfl

/-- The network's output. -/
theorem v21_at (n : Fin 200000) (q : Fin 384) :
    val_main_v21 (F := Ideal) x0 x3 x4 x5 x6 x7 x8 (ix2 n q)
      = Cert.NodeUpdate.net (mat x3) (vec x4) (mat x5) (vec x6) (mat x7) (vec x8) (row x0 n) q := by
  rw [val_main_v21_apply, val_main_v18_apply, val_main_v20_apply, val_main_v19_apply]
  unfold Cert.NodeUpdate.net Cert.NodeUpdate.affine
  refine congrArg₂ (· + ·) (Finset.sum_congr rfl fun k _ => ?_) ?_
  · have e1 : lidx_main_v18 (ix2 n q) k = ix2 n k := funext fun a => by
      match a with
      | ⟨0, _⟩ => rfl
      | ⟨1, _⟩ => rfl
    have e2 : ridx_main_v18 (ix2 n q) k = ix2 k q := funext fun a => by
      match a with
      | ⟨0, _⟩ => rfl
      | ⟨1, _⟩ => rfl
    rw [e1, e2, v17_at]
  · exact congrArg x8 (funext fun a => by
      match a with
      | ⟨0, _⟩ => rfl)

/-- The first gate: the network's output at `g`. -/
theorem v22_at (n : Fin 200000) (g : Fin 128) :
    val_main_v22 (F := Ideal) x0 x3 x4 x5 x6 x7 x8 (ix2 n g)
      = Cert.NodeUpdate.net (mat x3) (vec x4) (mat x5) (vec x6) (mat x7) (vec x8) (row x0 n)
          ⟨g.val, by have := g.isLt; omega⟩ := by
  rw [val_main_v22_apply]
  refine Eq.trans (congrArg _ (funext fun a => ?_)) (v21_at x0 x3 x4 x5 x6 x7 x8 n ⟨g.val, by have := g.isLt; omega⟩)
  match a with
  | ⟨0, _⟩ => rfl
  | ⟨1, _⟩ => rfl

/-- The second gate: the network's output at `128 + g`. -/
theorem v23_at (n : Fin 200000) (g : Fin 128) :
    val_main_v23 (F := Ideal) x0 x3 x4 x5 x6 x7 x8 (ix2 n g)
      = Cert.NodeUpdate.net (mat x3) (vec x4) (mat x5) (vec x6) (mat x7) (vec x8) (row x0 n)
          ⟨128 + g.val, by have := g.isLt; omega⟩ := by
  rw [val_main_v23_apply]
  refine Eq.trans (congrArg _ (funext fun a => ?_)) (v21_at x0 x3 x4 x5 x6 x7 x8 n ⟨128 + g.val, by have := g.isLt; omega⟩)
  match a with
  | ⟨0, _⟩ => rfl
  | ⟨1, _⟩ => rfl

/-- The third gate: the network's output at `256 + g`. -/
theorem v24_at (n : Fin 200000) (g : Fin 128) :
    val_main_v24 (F := Ideal) x0 x3 x4 x5 x6 x7 x8 (ix2 n g)
      = Cert.NodeUpdate.net (mat x3) (vec x4) (mat x5) (vec x6) (mat x7) (vec x8) (row x0 n)
          ⟨256 + g.val, by have := g.isLt; omega⟩ := by
  rw [val_main_v24_apply]
  refine Eq.trans (congrArg _ (funext fun a => ?_)) (v21_at x0 x3 x4 x5 x6 x7 x8 n ⟨256 + g.val, by have := g.isLt; omega⟩)
  match a with
  | ⟨0, _⟩ => rfl
  | ⟨1, _⟩ => rfl

/-- The vector update at `(n, c, g)`: the first gate at `g` times the first image. -/
theorem v27_at (n : Fin 200000) (c : Fin 3) (g : Fin 128) :
    val_main_v27 (F := Ideal) x0 x1 x2 x3 x4 x5 x6 x7 x8 (ix3 n c g)
      = Cert.NodeUpdate.net (mat x3) (vec x4) (mat x5) (vec x6) (mat x7) (vec x8) (row x0 n) ⟨g.val, by have := g.isLt; omega⟩
          * Cert.NodeUpdate.U (mat x1) (vec x2) (row x0 n) c g := by
  rw [val_main_v27_apply, val_main_v26_apply, val_main_v25_apply, v6_at]
  have e : idx_main_v25 (idx_main_v26 (ix3 n c g)) = ix2 n g := funext fun a => by
    match a with
    | ⟨0, _⟩ => rfl
    | ⟨1, _⟩ => rfl
  rw [e, v22_at]
  rfl

/-- The inner product of the two images: zero plus the three products, in the order `(a + b) + c`. -/
theorem v29_at (n : Fin 200000) (g : Fin 128) :
    val_main_v29 (F := Ideal) x0 x1 x2 x3 x4 (ix2 n g)
      = Cert.NodeUpdate.inner (mat x1) (mat x3) (vec x2) (vec x4) (row x0 n) g := by
  have e : ∀ k : Fin 3, val_main_v28 (F := Ideal) x0 x1 x2 x3 x4 (idx_main_v29 (ix2 n g) k)
      = Cert.NodeUpdate.U (mat x1) (vec x2) (row x0 n) k g * Cert.NodeUpdate.V (mat x3) (vec x4) (row x0 n) k g := fun k => by
    have ei : idx_main_v29 (ix2 n g) k = ix3 n k g := funext fun a => by
      match a with
      | ⟨0, _⟩ => rfl
      | ⟨1, _⟩ => rfl
      | ⟨2, _⟩ => rfl
    rw [ei, val_main_v28_apply, v6_at, v10_at]
    rfl
  rw [val_main_v29_apply, val_main_cst_apply, Fin.sum_univ_three, e 0, e 1, e 2]
  unfold Cert.NodeUpdate.inner
  rw [Ideal.ofBits_def, Ideal.ofBits_zero_f32, zero_add]

/-- The scalar update at `(n, g)`: the second gate times the inner product, plus the third gate. -/
theorem v31_at (n : Fin 200000) (g : Fin 128) :
    val_main_v31 (F := Ideal) x0 x1 x2 x3 x4 x5 x6 x7 x8 (ix2 n g)
      = Cert.NodeUpdate.net (mat x3) (vec x4) (mat x5) (vec x6) (mat x7) (vec x8) (row x0 n) ⟨128 + g.val, by have := g.isLt; omega⟩
          * Cert.NodeUpdate.inner (mat x1) (mat x3) (vec x2) (vec x4) (row x0 n) g
        + Cert.NodeUpdate.net (mat x3) (vec x4) (mat x5) (vec x6) (mat x7) (vec x8) (row x0 n) ⟨256 + g.val, by have := g.isLt; omega⟩ := by
  rw [val_main_v31_apply, val_main_v30_apply, v23_at, v29_at, v24_at]
  rfl

/-- The joined update on the scalar positions. -/
theorem v33_at_scalar (n : Fin 200000) (j : Fin 512) (h : j.val < 128) :
    val_main_v33 (F := Ideal) x0 x1 x2 x3 x4 x5 x6 x7 x8 (ix2 n j)
      = val_main_v31 (F := Ideal) x0 x1 x2 x3 x4 x5 x6 x7 x8 (ix2 n (⟨j.val, h⟩ : Fin 128)) := by
  unfold val_main_v33
  exact concatenate_pair_apply_left (1 : Fin S200000x512.rank) _ _ concatenates_S200000x128_S200000x384_S200000x512_d1
    (ix2 n j) rfl (ix2 n (⟨j.val, h⟩ : Fin 128)) (fun b => by
      match b with
      | ⟨0, _⟩ => rfl
      | ⟨1, _⟩ => rfl)

/-- The joined update on the vector positions: position `128 + q` reads the vector update at
    channel `q / 128`, entry `q % 128`. -/
theorem v33_at_vector (n : Fin 200000) (j : Fin 512) (h : ¬ j.val < 128) :
    val_main_v33 (F := Ideal) x0 x1 x2 x3 x4 x5 x6 x7 x8 (ix2 n j)
      = val_main_v27 (F := Ideal) x0 x1 x2 x3 x4 x5 x6 x7 x8
          (ix3 n (⟨(j.val - 128) / 128, by have := j.isLt; omega⟩ : Fin 3) (⟨(j.val - 128) % 128, Nat.mod_lt _ (by decide)⟩ : Fin 128)) := by
  have hj := j.isLt
  have hn := n.isLt
  unfold val_main_v33
  refine (concatenate_pair_apply_right (1 : Fin S200000x512.rank) _ _ concatenates_S200000x128_S200000x384_S200000x512_d1
    (ix2 n j) rfl rfl (ix2 n (⟨j.val - 128, by omega⟩ : Fin 384)) (fun b hb => by
      match b, hb with
      | ⟨0, _⟩, _ => rfl
      | ⟨1, _⟩, hb => exact absurd rfl hb) (by show j.val - 128 + 128 = j.val; omega)).trans ?_
  rw [val_main_v32_apply]
  refine congrArg _ (funext fun a => ?_)
  match a with
  | ⟨0, _⟩ => exact Fin.ext (by show (n.val * 384 + (j.val - 128)) / 384 = n.val; omega)
  | ⟨1, _⟩ => exact Fin.ext (by show (n.val * 384 + (j.val - 128)) / 128 % 3 = (j.val - 128) / 128; omega)
  | ⟨2, _⟩ => exact Fin.ext (by show (n.val * 384 + (j.val - 128)) % 128 = (j.val - 128) % 128; omega)

/-- The reference's result at row `n`, position `j`, is the updated row of row `n` at `j`. -/
theorem ref_at (n : Fin 200000) (j : Fin 512) :
    val_main_v34 (F := Ideal) x0 x1 x2 x3 x4 x5 x6 x7 x8 (ix2 n j)
      = Cert.NodeUpdate.out (mat x1) (mat x3) (vec x2) (vec x4) (mat x5) (vec x6) (mat x7) (vec x8) (row x0 n) j := by
  have hj := j.isLt
  rw [val_main_v34_apply]
  by_cases h : j.val < 128
  · rw [Cert.NodeUpdate.out_scalar (mat x1) (mat x3) (vec x2) (vec x4) (mat x5) (vec x6) (mat x7) (vec x8) (row x0 n) j ⟨j.val, h⟩ rfl,
      v33_at_scalar x0 x1 x2 x3 x4 x5 x6 x7 x8 n j h, v31_at]
    rfl
  · rw [Cert.NodeUpdate.out_chan (mat x1) (mat x3) (vec x2) (vec x4) (mat x5) (vec x6) (mat x7) (vec x8) (row x0 n) j
        ⟨(j.val - 128) / 128, by omega⟩ ⟨(j.val - 128) % 128, Nat.mod_lt _ (by decide)⟩
        (by show j.val = 128 + ((j.val - 128) / 128 * 128 + (j.val - 128) % 128); omega),
      v33_at_vector x0 x1 x2 x3 x4 x5 x6 x7 x8 n j h, v27_at]
    unfold Cert.NodeUpdate.outV Cert.NodeUpdate.chan
    refine congrArg₂ (· + ·) (congrArg x0 (funext fun a => ?_)) rfl
    match a with
    | ⟨0, _⟩ => rfl
    | ⟨1, _⟩ => exact Fin.ext (by show j.val = 128 + ((j.val - 128) / 128 * 128 + (j.val - 128) % 128); omega)

end

theorem ref_apply (x0 : S200000x512.Idx → EReal) (x1 : S128x128.Idx → EReal) (x2 : S128.Idx → EReal) (x3 : S128x128.Idx → EReal) (x4 : S128.Idx → EReal) (x5 : S256x128.Idx → EReal) (x6 : S128.Idx → EReal) (x7 : S128x384.Idx → EReal) (x8 : S384.Idx → EReal) (n : Fin 200000) (j : Fin 512) :
    val_main_v34 (F := Ideal) x0 x1 x2 x3 x4 x5 x6 x7 x8 (ix2 n j)
      = Cert.NodeUpdate.out (fun k g => x1 (ix2 k g)) (fun k g => x3 (ix2 k g)) (fun g => x2 (ix1 g)) (fun g => x4 (ix1 g))
          (fun k g => x5 (ix2 k g)) (fun g => x6 (ix1 g)) (fun k g => x7 (ix2 k g)) (fun g => x8 (ix1 g)) (fun q => x0 (ix2 n q)) j :=
  ref_at x0 x1 x2 x3 x4 x5 x6 x7 x8 n j

end Cert.ReferenceIdeal.RowValue

end
-- ==== Proof.lean ====
/-
  The kernel updates a [200000, 512] array of node features row by row, 1000 rows per grid point; the reference does
  the same update on the whole array at once.  Over the extended reals both are, row by row, the node update of
  Proof/NodeUpdate.lean:

    Proof/NodeUpdate.lean     the update of one row, as a function of the row and the weights
    Proof/BlockProducts.lean  the body's three matrix products and its bias rows, at an entry
    Proof/BlockRow.lean       the block the body leaves is the block of updated rows
    Proof/ArrayValue.lean     the 200 blocks tile the array: the kernel's result is the array of updated rows
    Proof/RefRow.lean         the reference's result at `(n, j)` is entry `j` of the update of row `n`

  Read at an entry the two sides are the same sums, products, square root and logistic function in the same order,
  so they agree term by term.  Beyond the reading of a matrix product from a zero accumulator and of a reduction over
  the three channels as its initial value plus a sum, the arithmetic facts used are that the literal words
  `0x00000000` and `0x3F800000` denote 0 and 1, that `0 + a = a`, and that the logistic function is by definition
  `1 / (1 + e^(−t))`.  No distributive or cancellation law is needed, so the inputs' finiteness is never opened.
-/
import proofs.«179087_j41291815584027_1_alg».proof.Defs
import proofs.«179087_j41291815584027_1_alg».proof.Proof.Gen.Kernel
import proofs.«179087_j41291815584027_1_alg».proof.Proof.Gen.Kernel.Skeleton
import proofs.«179087_j41291815584027_1_alg».proof.Proof.Gen.Kernel.Launch
import proofs.«179087_j41291815584027_1_alg».proof.Proof.Gen.Kernel.Points
import proofs.«179087_j41291815584027_1_alg».proof.Proof.Gen.Kernel.Frame
import proofs.«179087_j41291815584027_1_alg».proof.Proof.Gen.KernelIdeal
import proofs.«179087_j41291815584027_1_alg».proof.Proof.Gen.KernelIdeal.Skeleton
import proofs.«179087_j41291815584027_1_alg».proof.Proof.Gen.KernelIdeal.Launch
import proofs.«179087_j41291815584027_1_alg».proof.Proof.Gen.KernelIdeal.Points
import proofs.«179087_j41291815584027_1_alg».proof.Proof.Gen.KernelIdeal.Frame
import proofs.«179087_j41291815584027_1_alg».proof.Proof.Gen.ReferenceIdeal
import proofs.«179087_j41291815584027_1_alg».proof.Proof.Gen.Pre_finite_inputs
import proofs.«179087_j41291815584027_1_alg».proof.Proof.Gen.KernelIdeal.Value
import proofs.«179087_j41291815584027_1_alg».proof.Proof.Gen.ReferenceIdeal.Run
import proofs.«179087_j41291815584027_1_alg».proof.Proof.Gen.ReferenceIdeal.Read
import proofs.«179087_j41291815584027_1_alg».proof.Proof.ArrayValue
import proofs.«179087_j41291815584027_1_alg».proof.Proof.RefRow
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the array of updated rows of the (agreeing) arguments. -/
theorem algebraic : Cert.algebraic_KernelIdeal_ReferenceIdeal := by
  intro m ρ m' ρ' _ hagree
  refine ⟨fun c => Cert.KernelIdeal.RowValue.updArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v34_eq, a0, a1, a2, a3, a4, a5, a6, a7, a8]
  funext i
  obtain ⟨n, j, rfl⟩ : ∃ (n : Fin 200000) (j : Fin 512), i = ix2 n j := ⟨i 0, i 1, eq_ix2 i⟩
  exact Cert.ReferenceIdeal.RowValue.ref_apply _ _ _ _ _ _ _ _ _ n j

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
